-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v27)) (v3 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v27) = v2 c
          ∧ r.2.mem ((c.tc : Thread Cert.KernelIdeal.nD Cert.KernelIdeal.τ).loc Cert.KernelIdeal.main_v26) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v22) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S50000x3 : Shape := ⟨2, ![50000, 3]⟩
abbrev S5000x3 : Shape := ⟨2, ![5000, 3]⟩
abbrev S50 : Shape := ⟨1, ![50]⟩
abbrev S50x128 : Shape := ⟨2, ![50, 128]⟩
abbrev S128 : Shape := ⟨1, ![128]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S5000x3 : S_.BroadcastsInDim S5000x3 (![] : Fin 0 → Fin S5000x3.rank)
  reducesTo_S5000x3_S_d0_1 : S5000x3.ReducesTo [0, 1] S_
  bcast_S_S50 : S_.BroadcastsInDim S50 (![] : Fin 0 → Fin S50.rank)
  reducesTo_S50_S_d0 : S50.ReducesTo [0] S_
  bcast_S_S50x128 : S_.BroadcastsInDim S50x128 (![] : Fin 0 → Fin S50x128.rank)
  reducesTo_S50x128_S_d0_1 : S50x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S50x128 .f32) (main_arg6 : FVec F S128 .f32) (main_v13 : IVec S_ 1) (main_v16 : IVec S50 1) : IVec S_ 1 :=
  let main_c_5 : IVec S_ 1 := constantI S_ 1 1#1
  let main_v17 : IVec S_ 1 := (fun x v => Host.reduce IntOp.andi x v reducesTo_S50_S_d0 h_S_) main_v16 main_c_5
  let main_v18 : IVec S_ 1 := andi main_v13 main_v17
  let main_v19 : FVec F S50x128 .f32 := Host.absf main_arg5
  let main_cst_6 : FVec F S_ .f32 := constant S_ .f32 0x7F800000#32
  let main_v20 : FVec F S50x128 .f32 := broadcastInDim S50x128 ![] bcast_S_S50x128 main_cst_6
  let main_v21 : IVec S50x128 1 := cmpf .olt main_v19 main_v20
  let main_c_7 : IVec S_ 1 := constantI S_ 1 1#1
  let main_v22 : IVec S_ 1 := (fun x v => Host.reduce IntOp.andi x v reducesTo_S50x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : IVec S2x1600000 32) (main_arg1 : FVec F S50000x3 .f32) (main_arg2 : FVec F S5000x3 .f32) (main_arg3 : FVec F S50 .f32) (main_arg4 : FVec F S50 .f32) (main_arg5 : FVec F S50x128 .f32) (main_arg6 : FVec F S128 .f32) : IVec S_ 1 :=
  let main_v0 : FVec F S50000x3 .f32 := Host.absf main_arg1
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S5000x3 .f32 := Host.absf main_arg2
  let main_cst_0 : FVec F S_ .f32 := constant S_ .f32 0x7F800000#32
  let main_v5 : FVec F S5000x3 .f32 := broadcastInDim S5000x3 ![] bcast_S_S5000x3 main_cst_0
  let main_v6 : IVec S5000x3 1 := cmpf .olt main_v4 main_v5
  let main_c_1 : IVec S_ 1 := constantI S_ 1 1#1
  let main_v7 : IVec S_ 1 := (fun x v => Host.reduce IntOp.andi x v reducesTo_S5000x3_S_d0_1 h_S_) main_v6 main_c_1
  let main_v8 : IVec S_ 1 := andi main_v3 main_v7
  let main_v9 : FVec F S50 .f32 := Host.absf main_arg3
  let main_cst_2 : FVec F S_ .f32 := constant S_ .f32 0x7F800000#32
  let main_v10 : FVec F S50 .f32 := broadcastInDim S50 ![] bcast_S_S50 main_cst_2
  let main_v11 : IVec S50 1 := cmpf .olt main_v9 main_v10
  let main_c_3 : IVec S_ 1 := constantI S_ 1 1#1
  let main_v12 : IVec S_ 1 := (fun x v => Host.reduce IntOp.andi x v reducesTo_S50_S_d0 h_S_) main_v11 main_c_3
  let main_v13 : IVec S_ 1 := andi main_v8 main_v12
  let main_v14 : FVec F S50 .f32 := Host.absf main_arg4
  let main_cst_4 : FVec F S_ .f32 := constant S_ .f32 0x7F800000#32
  let main_v15 : FVec F S50 .f32 := broadcastInDim S50 ![] bcast_S_S50 main_cst_4
  let main_v16 : IVec S50 1 := cmpf .olt main_v14 main_v15
  fn_part1 (F := F) main_arg5 main_arg6 main_v13 main_v16
-- ==== Kernel.lean ====
abbrev S2x1600000 : Shape := ⟨2, ![2, 1600000]⟩
abbrev S50000x3 : Shape := ⟨2, ![50000, 3]⟩
abbrev S5000x3 : Shape := ⟨2, ![5000, 3]⟩
abbrev S50 : Shape := ⟨1, ![50]⟩
abbrev S50x128 : Shape := ⟨2, ![50, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x3 : Shape := ⟨2, ![1600000, 3]⟩
abbrev S1601536x3 : Shape := ⟨2, ![1601536, 3]⟩
abbrev S1x50 : Shape := ⟨2, ![1, 50]⟩
abbrev S1x128 : Shape := ⟨2, ![1, 128]⟩
abbrev S1601536x1 : Shape := ⟨2, ![1601536, 1]⟩
abbrev S1601536x128 : Shape := ⟨2, ![1601536, 128]⟩
abbrev S2048x3 : Shape := ⟨2, ![2048, 3]⟩
abbrev S2048x1 : Shape := ⟨2, ![2048, 1]⟩
abbrev S2048x128 : Shape := ⟨2, ![2048, 128]⟩
abbrev S2048 : Shape := ⟨1, ![2048]⟩
abbrev S2048x50 : Shape := ⟨2, ![2048, 50]⟩
abbrev S1600000x128 : Shape := ⟨2, ![1600000, 128]⟩

abbrev nBuf : Space → Nat
  | .hbm => 43
  | .vmem => 12
  | .smem => 0
  | _ => 0

abbrev bufTy : (tb : Table) → Fin (tcTables nBuf tb) → BufTy
  | .hbm, ⟨0, _⟩ => ⟨S2x1600000, .i32⟩
  | .hbm, ⟨1, _⟩ => ⟨S50000x3, .f32⟩
  | .hbm, ⟨2, _⟩ => ⟨S5000x3, .f32⟩
  | .hbm, ⟨3, _⟩ => ⟨S50, .f32⟩
  | .hbm, ⟨4, _⟩ => ⟨S50, .f32⟩
  | .hbm, ⟨5, _⟩ => ⟨S50x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x3, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x3, .f32⟩
  | .hbm, ⟨29, _⟩ => ⟨S1600000x3, .f32⟩
  | .hbm, ⟨30, _⟩ => ⟨S_, .i32⟩
  | .hbm, ⟨31, _⟩ => ⟨S_, .f32⟩
  | .hbm, ⟨32, _⟩ => ⟨S1601536x3, .f32⟩
  | .hbm, ⟨33, _⟩ => ⟨S1x50, .f32⟩
  | .hbm, ⟨34, _⟩ => ⟨S1x50, .f32⟩
  | .hbm, ⟨35, _⟩ => ⟨S1x128, .f32⟩
  | .hbm, ⟨36, _⟩ => ⟨S1601536x1, .f32⟩
  | .hbm, ⟨37, _⟩ => ⟨S1601536x3, .f32⟩
  | .hbm, ⟨38, _⟩ => ⟨S1601536x128, .f32⟩
  | .hbm, ⟨39, _⟩ => ⟨S1600000x1, .f32⟩
  | .hbm, ⟨40, _⟩ => ⟨S1600000, .f32⟩
  | .hbm, ⟨41, _⟩ => ⟨S1600000x3, .f32⟩
  | .hbm, ⟨42, _⟩ => ⟨S1600000x128, .f32⟩
  | .local _ .vmem, ⟨0, _⟩ => ⟨S2048x3, .f32⟩
  | .local _ .vmem, ⟨1, _⟩ => ⟨S2048x3, .f32⟩
  | .local _ .vmem, ⟨2, _⟩ => ⟨S1x50, .f32⟩
  | .local _ .vmem, ⟨3, _⟩ => ⟨S1x50, .f32⟩
  | .local _ .vmem, ⟨4, _⟩ => ⟨S50x128, .f32⟩
  | .local _ .vmem, ⟨5, _⟩ => ⟨S1x128, .f32⟩
  | .local _ .vmem, ⟨6, _⟩ => ⟨S2048x1, .f32⟩
  | .local _ .vmem, ⟨7, _⟩ => ⟨S2048x1, .f32⟩
  | .local _ .vmem, ⟨8, _⟩ => ⟨S2048x3, .f32⟩
  | .local _ .vmem, ⟨9, _⟩ => ⟨S2048x3, .f32⟩
  | .local _ .vmem, ⟨10, _⟩ => ⟨S2048x128, .f32⟩
  | .local _ .vmem, ⟨11, _⟩ => ⟨S2048x128, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23_0 : Ref sig .tc := ⟨.hbm, 36, rfl⟩
abbrev main_v23_1 : Ref sig .tc := ⟨.hbm, 37, rfl⟩
abbrev main_v23_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![782], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x50 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  pads_S1600000x3_S1601536x3_015360_000 : S1600000x3.Pads (![0, 0] : Fin 2 → Nat) ![1536, 0] ![0, 0] S1601536x3
  h_S_ : 0 < S_.numel
  shapeCasts_S50_S1x50 : S50.ShapeCasts S1x50
  shapeCasts_S128_S1x128 : S128.ShapeCasts S1x128
  inb_S2048x3_S2048x3_0_0 : ∀ a, (![0, 0] : Fin 2 → Nat) a + S2048x3.size a ≤ S2048x3.size a
  h_S2048x3 : 0 < S2048x3.numel
  shapeCasts_S2048x3_S2048x3 : S2048x3.ShapeCasts S2048x3
  reduces_S2048x3_S2048 : S2048x3.Reduces [1] S2048
  shapeCasts_S2048_S2048x1 : S2048.ShapeCasts S2048x1
  broadcasts_S2048x1_S2048x3 : S2048x1.Broadcasts S2048x3
  natLt_1_32 : 1 < 32
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S2048x1_S2048x50 : S2048x1.Broadcasts S2048x50
  broadcasts_S1x50_S2048x50 : S1x50.Broadcasts S2048x50
  inb_S50x128_S50x128_0_0 : ∀ a, (![0, 0] : Fin 2 → Nat) a + S50x128.size a ≤ S50x128.size a
  h_S50x128 : 0 < S50x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  broadcasts_S1x128_S2048x128 : S1x128.Broadcasts S2048x128
  inb_S2048x1_S2048x1_0_0 : ∀ a, (![0, 0] : Fin 2 → Nat) a + S2048x1.size a ≤ S2048x1.size a
  h_S2048x1 : 0 < S2048x1.numel
  inb_S2048x128_S2048x128_0_0 : ∀ a, (![0, 0] : Fin 2 → Nat) a + S2048x128.size a ≤ S2048x128.size a
  h_S2048x128 : 0 < S2048x128.numel
  slices_S1601536x1_S1600000x1_0_0 : S1601536x1.Slices ![0, 0] S1600000x1
  shapeCasts_S1600000x1_S1600000 : S1600000x1.ShapeCasts S1600000
  slices_S1601536x3_S1600000x3_0_0 : S1601536x3.Slices ![0, 0] S1600000x3
  slices_S1601536x128_S1600000x128_0_0 : S1601536x128.Slices ![0, 0] S1600000x128
  gather_S50000x3_S1600000x1_S1600000x3_1_0_n_n_0_1_13_wf : GatherDims.WF S50000x3 S1600000x1 S1600000x3 [1] [0] [] [0] [] 1 ![1, 3]
  gather_S5000x3_S1600000x1_S1600000x3_1_0_n_n_0_1_13_wf : GatherDims.WF S5000x3 S1600000x1 S1600000x3 [1] [0] [] [0] [] 1 ![1, 3]
  dot_S2048x50_S50x128_S2048x128_1_0_0_1_n_n_wf : DotDims.WF S2048x50 S50x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x3.size a ≤ S1601536x3.size a
  hwx0_0 : ∀ i : grid0.Coords, EltTy.bits .f32 = 32 ∨ (Rect.block (s := S1601536x3) S2048x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x50.size a ≤ S1x50.size a
  hwx0_1 : ∀ i : grid0.Coords, EltTy.bits .f32 = 32 ∨ (Rect.block (s := S1x50) S1x50.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x50.size a ≤ S1x50.size a
  hwx0_2 : ∀ i : grid0.Coords, EltTy.bits .f32 = 32 ∨ (Rect.block (s := S1x50) S1x50.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50x128.size a ≤ S50x128.size a
  hwx0_3 : ∀ i : grid0.Coords, EltTy.bits .f32 = 32 ∨ (Rect.block (s := S50x128) S50x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S1601536x1.size a
  hwx0_5 : ∀ i : grid0.Coords, EltTy.bits .f32 = 32 ∨ (Rect.block (s := S1601536x1) S2048x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x3.size a ≤ S1601536x3.size a
  hwx0_6 : ∀ i : grid0.Coords, EltTy.bits .f32 = 32 ∨ (Rect.block (s := S1601536x3) S2048x3.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S1601536x128.size a
  hwx0_7 : ∀ i : grid0.Coords, EltTy.bits .f32 = 32 ∨ (Rect.block (s := S1601536x128) S2048x128.size (cc0_transform_7 i) (hinb0_7 i)).WholeWords (EltTy.packing .f32)

variable [Facts₀]

def gather_S50000x3_S1600000x1_S1600000x3_1_0_n_n_0_1_13 : GatherDims S50000x3 S1600000x1 S1600000x3 where
  offsetDims := [1]
  collapsedSliceDims := [0]
  operandBatchingDims := []
  startIndicesBatchingDims := []
  startIndexMap := [0]
  indexVectorDim := 1
  sliceSizes := ![1, 3]
  wf := gather_S50000x3_S1600000x1_S1600000x3_1_0_n_n_0_1_13_wf
def gather_S5000x3_S1600000x1_S1600000x3_1_0_n_n_0_1_13 : GatherDims S5000x3 S1600000x1 S1600000x3 where
  offsetDims := [1]
  collapsedSliceDims := [0]
  operandBatchingDims := []
  startIndicesBatchingDims := []
  startIndexMap := [0]
  indexVectorDim := 1
  sliceSizes := ![1, 3]
  wf := gather_S5000x3_S1600000x1_S1600000x3_1_0_n_n_0_1_13_wf
def dot_S2048x50_S50x128_S2048x128_1_0_0_1_n_n : DotDims S2048x50 S50x128 S2048x128 where
  lhsContracting := [1]
  rhsContracting := [0]
  lhsNonContracting := [0]
  rhsNonContracting := [1]
  lhsBatch := []
  rhsBatch := []
  wf := dot_S2048x50_S50x128_S2048x128_1_0_0_1_n_n_wf

abbrev win0_0 : Pipeline.Window sig grid0 :=
  Pipeline.Window.ofSpec (Memref.whole main_v19) S2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1x50.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S50x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23_0) S2048x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v23_1) S2048x3.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v23_2) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x1600000 : Shape := ⟨2, ![2, 1600000]⟩
abbrev S50000x3 : Shape := ⟨2, ![50000, 3]⟩
abbrev S5000x3 : Shape := ⟨2, ![5000, 3]⟩
abbrev S50 : Shape := ⟨1, ![50]⟩
abbrev S50x128 : Shape := ⟨2, ![50, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x3 : Shape := ⟨2, ![1600000, 3]⟩
abbrev S1x50 : Shape := ⟨2, ![1, 50]⟩
abbrev S1600000x50 : Shape := ⟨2, ![1600000, 50]⟩
abbrev S1600000x128 : Shape := ⟨2, ![1600000, 128]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S2x1600000, .i32⟩
  | .hbm, ⟨1, _⟩ => ⟨S50000x3, .f32⟩
  | .hbm, ⟨2, _⟩ => ⟨S5000x3, .f32⟩
  | .hbm, ⟨3, _⟩ => ⟨S50, .f32⟩
  | .hbm, ⟨4, _⟩ => ⟨S50, .f32⟩
  | .hbm, ⟨5, _⟩ => ⟨S50x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x3, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x3, .f32⟩
  | .hbm, ⟨29, _⟩ => ⟨S1600000x3, .f32⟩
  | .hbm, ⟨30, _⟩ => ⟨S1600000x3, .f32⟩
  | .hbm, ⟨31, _⟩ => ⟨S_, .f32⟩
  | .hbm, ⟨32, _⟩ => ⟨S1600000, .f32⟩
  | .hbm, ⟨33, _⟩ => ⟨S1600000, .f32⟩
  | .hbm, ⟨34, _⟩ => ⟨S1600000x1, .f32⟩
  | .hbm, ⟨35, _⟩ => ⟨S1600000x3, .f32⟩
  | .hbm, ⟨36, _⟩ => ⟨S1600000x3, .f32⟩
  | .hbm, ⟨37, _⟩ => ⟨S1600000x1, .f32⟩
  | .hbm, ⟨38, _⟩ => ⟨S_, .f32⟩
  | .hbm, ⟨39, _⟩ => ⟨S1600000x1, .f32⟩
  | .hbm, ⟨40, _⟩ => ⟨S1600000x1, .f32⟩
  | .hbm, ⟨41, _⟩ => ⟨S_, .f32⟩
  | .hbm, ⟨42, _⟩ => ⟨S1600000x1, .f32⟩
  | .hbm, ⟨43, _⟩ => ⟨S1600000x1, .f32⟩
  | .hbm, ⟨44, _⟩ => ⟨S1600000x1, .f32⟩
  | .hbm, ⟨45, _⟩ => ⟨S_, .f32⟩
  | .hbm, ⟨46, _⟩ => ⟨S1600000x1, .f32⟩
  | .hbm, ⟨47, _⟩ => ⟨S1600000x1, .f32⟩
  | .hbm, ⟨48, _⟩ => ⟨S_, .f32⟩
  | .hbm, ⟨49, _⟩ => ⟨S1600000x1, .f32⟩
  | .hbm, ⟨50, _⟩ => ⟨S1600000x1, .f32⟩
  | .hbm, ⟨51, _⟩ => ⟨S_, .f32⟩
  | .hbm, ⟨52, _⟩ => ⟨S1600000x1, .f32⟩
  | .hbm, ⟨53, _⟩ => ⟨S1600000x1, .i1⟩
  | .hbm, ⟨54, _⟩ => ⟨S1600000x1, .f32⟩
  | .hbm, ⟨55, _⟩ => ⟨S1600000x1, .f32⟩
  | .hbm, ⟨56, _⟩ => ⟨S50, .f32⟩
  | .hbm, ⟨57, _⟩ => ⟨S_, .f32⟩
  | .hbm, ⟨58, _⟩ => ⟨S1600000x1, .f32⟩
  | .hbm, ⟨59, _⟩ => ⟨S1600000x1, .f32⟩
  | .hbm, ⟨60, _⟩ => ⟨S_, .f32⟩
  | .hbm, ⟨61, _⟩ => ⟨S1600000x1, .f32⟩
  | .hbm, ⟨62, _⟩ => ⟨S1600000x1, .f32⟩
  | .hbm, ⟨63, _⟩ => ⟨S1600000x1, .f32⟩
  | .hbm, ⟨64, _⟩ => ⟨S1x50, .f32⟩
  | .hbm, ⟨65, _⟩ => ⟨S1600000x50, .f32⟩
  | .hbm, ⟨66, _⟩ => ⟨S1600000x50, .f32⟩
  | .hbm, ⟨67, _⟩ => ⟨S1600000x50, .f32⟩
  | .hbm, ⟨68, _⟩ => ⟨S1600000x50, .f32⟩
  | .hbm, ⟨69, _⟩ => ⟨S1x50, .f32⟩
  | .hbm, ⟨70, _⟩ => ⟨S1600000x50, .f32⟩
  | .hbm, ⟨71, _⟩ => ⟨S1600000x50, .f32⟩
  | .hbm, ⟨72, _⟩ => ⟨S1600000x50, .f32⟩
  | .hbm, ⟨73, _⟩ => ⟨S1600000x50, .f32⟩
  | .hbm, ⟨74, _⟩ => ⟨S1600000x50, .f32⟩
  | .hbm, ⟨75, _⟩ => ⟨S1600000x128, .f32⟩
  | .hbm, ⟨76, _⟩ => ⟨S1x128, .f32⟩
  | .hbm, ⟨77, _⟩ => ⟨S1600000x128, .f32⟩
  | .hbm, ⟨78, _⟩ => ⟨S1600000x128, .f32⟩
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_cst : Ref sig .tc := ⟨.hbm, 31, rfl⟩
abbrev main_call0_v1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x3_S1600000_d1 : S1600000x3.ReducesTo [1] S1600000
  h_S_ : 0 < S_.numel
  bcast_S1600000x1_S1600000x3_0_1 : S1600000x1.BroadcastsInDim S1600000x3 (![0, 1] : Fin 2 → Fin S1600000x3.rank)
  bcast_S_S1600000x1 : S_.BroadcastsInDim S1600000x1 (![] : Fin 0 → Fin S1600000x1.rank)
  bcast_S50_S1x50_1 : S50.BroadcastsInDim S1x50 (![1] : Fin 1 → Fin S1x50.rank)
  bcast_S1600000x1_S1600000x50_0_1 : S1600000x1.BroadcastsInDim S1600000x50 (![0, 1] : Fin 2 → Fin S1600000x50.rank)
  bcast_S1x50_S1600000x50_0_1 : S1x50.BroadcastsInDim S1600000x50 (![0, 1] : Fin 2 → Fin S1600000x50.rank)
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  gather_S50000x3_S1600000x1_S1600000x3_1_0_n_n_0_1_13_wf : GatherDims.WF S50000x3 S1600000x1 S1600000x3 [1] [0] [] [0] [] 1 ![1, 3]
  gather_S5000x3_S1600000x1_S1600000x3_1_0_n_n_0_1_13_wf : GatherDims.WF S5000x3 S1600000x1 S1600000x3 [1] [0] [] [0] [] 1 ![1, 3]
  dot_S1600000x50_S50x128_S1600000x128_1_0_0_1_n_n_wf : DotDims.WF S1600000x50 S50x128 S1600000x128 [1] [0] [0] [1] [] []

variable [Facts₀]

def gather_S50000x3_S1600000x1_S1600000x3_1_0_n_n_0_1_13 : GatherDims S50000x3 S1600000x1 S1600000x3 where
  offsetDims := [1]
  collapsedSliceDims := [0]
  operandBatchingDims := []
  startIndicesBatchingDims := []
  startIndexMap := [0]
  indexVectorDim := 1
  sliceSizes := ![1, 3]
  wf := gather_S50000x3_S1600000x1_S1600000x3_1_0_n_n_0_1_13_wf
def gather_S5000x3_S1600000x1_S1600000x3_1_0_n_n_0_1_13 : GatherDims S5000x3 S1600000x1 S1600000x3 where
  offsetDims := [1]
  collapsedSliceDims := [0]
  operandBatchingDims := []
  startIndicesBatchingDims := []
  startIndexMap := [0]
  indexVectorDim := 1
  sliceSizes := ![1, 3]
  wf := gather_S5000x3_S1600000x1_S1600000x3_1_0_n_n_0_1_13_wf
def dot_S1600000x50_S50x128_S1600000x128_1_0_0_1_n_n : DotDims S1600000x50 S50x128 S1600000x128 where
  lhsContracting := [1]
  rhsContracting := [0]
  lhsNonContracting := [0]
  rhsNonContracting := [1]
  lhsBatch := []
  rhsBatch := []
  wf := dot_S1600000x50_S50x128_S1600000x128_1_0_0_1_n_n_wf

class Facts : Prop extends Facts₀ where

variable [Facts]
-- ==== Proof.KernelGrid.lean ====
/-
  The launch's grid read as arithmetic on rows.

  The launch has 782 points. At point t the edge-vector window and the three result windows are on block
  (t, 0): rows 2048·t … 2048·t + 2047 of their arrays; the four parameter windows stay on block (0, 0), which
  is the whole of each parameter array. So an entry of a block is an entry of the array the launch finds,
  at the row 2048·t + r, and every row of a result array lies in the block of exactly the point row / 2048.
-/
import proofs.«139296_j15607911153859_1_alg».proof.Proof.Gen.KernelIdeal.Frame
import Idealize.ShloMosaic.Lib.Pipeline.Value
import Idealize.ShloMosaic.Lib.ValueIdx

noncomputable section

namespace Cert.KernelIdeal.Grid

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

theorem hz : (![0, 0] : Fin 2 → Nat) = fun _ => 0 := funext fun a => by fin_cases a <;> rfl

/-- The printed index maps, decided over the 782 points: the edge-vector window and the three result windows are
    on block `(t, 0)`, the parameter windows on block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## The arrays the launch finds, at their literal types -/

/-- The zero-padded edge-vector array. -/
abbrev edgesP (c : Dev nD) : S1601536x3.Idx → EReal := V m c main_v19
/-- The means as one row. -/
abbrev meansRow (c : Dev nD) : S1x50.Idx → EReal := V m c main_v20
/-- The widths as one row. -/
abbrev widthsRow (c : Dev nD) : S1x50.Idx → EReal := V m c main_v21
/-- The weights. -/
abbrev weights (c : Dev nD) : S50x128.Idx → EReal := V m c main_arg5
/-- The bias as one row. -/
abbrev biasRow (c : Dev nD) : S1x128.Idx → EReal := V m c main_v22

/-! ## A block's entries are the array's -/

/-- Entry `x` of the edge-vector block at point `t` is the padded array's entry at row `2048·t + x₀`. -/
theorem edges_block (c : Dev nD) (t : Fin cfg0.N) (x : S2048x3.Idx) (k : S1601536x3.Idx)
    (hk0 : (k 0).val = t.val * 2048 + (x 0).val) (hk1 : (k 1).val = (x 1).val) :
    (iblk m c 0 t : Vec Ideal S2048x3 .f32) x = edgesP m c k := by
  obtain ⟨e0, e1, -⟩ := idx_facts t
  unfold iblk
  rw [View.read_apply]
  show edgesP m c _ = edgesP m c _
  refine congrArg (edgesP m c) (funext fun a => Fin.ext ?_)
  match a with
  | ⟨0, _⟩ => show win0_0.index t (0 : Fin 2) * 2048 + 1 * (x 0).val = (k 0).val; rw [e0, hk0]; omega
  | ⟨1, _⟩ => show win0_0.index t (1 : Fin 2) * 3 + 1 * (x 1).val = (k 1).val; rw [e1, hk1]; omega

/-- The means window's block is the whole one-row array, at every point. -/
theorem means_block (c : Dev nD) (t : Fin cfg0.N) : (iblk m c 1 t : Vec Ideal S1x50 .f32) = meansRow m c := by
  obtain ⟨-, -, e0, e1, -⟩ := idx_facts t
  funext x
  unfold iblk
  rw [View.read_apply]
  show meansRow m c _ = meansRow m c x
  refine congrArg (meansRow m c) (funext fun a => Fin.ext ?_)
  match a with
  | ⟨0, _⟩ => show win0_1.index t (0 : Fin 2) * 1 + 1 * (x 0).val = (x 0).val; rw [e0]; omega
  | ⟨1, _⟩ => show win0_1.index t (1 : Fin 2) * 50 + 1 * (x 1).val = (x 1).val; rw [e1]; omega

/-- The widths window's block is the whole one-row array, at every point. -/
theorem widths_block (c : Dev nD) (t : Fin cfg0.N) : (iblk m c 2 t : Vec Ideal S1x50 .f32) = widthsRow m c := by
  obtain ⟨-, -, -, -, e0, e1, -⟩ := idx_facts t
  funext x
  unfold iblk
  rw [View.read_apply]
  show widthsRow m c _ = widthsRow m c x
  refine congrArg (widthsRow m c) (funext fun a => Fin.ext ?_)
  match a with
  | ⟨0, _⟩ => show win0_2.index t (0 : Fin 2) * 1 + 1 * (x 0).val = (x 0).val; rw [e0]; omega
  | ⟨1, _⟩ => show win0_2.index t (1 : Fin 2) * 50 + 1 * (x 1).val = (x 1).val; rw [e1]; omega

/-- The weights window's block is the whole array, at every point. -/
theorem weights_block (c : Dev nD) (t : Fin cfg0.N) : (iblk m c 3 t : Vec Ideal S50x128 .f32) = weights m c := by
  obtain ⟨-, -, -, -, -, -, e0, e1, -⟩ := idx_facts t
  funext x
  unfold iblk
  rw [View.read_apply]
  show weights m c _ = weights m c x
  refine congrArg (weights m c) (funext fun a => Fin.ext ?_)
  match a with
  | ⟨0, _⟩ => show win0_3.index t (0 : Fin 2) * 50 + 1 * (x 0).val = (x 0).val; rw [e0]; omega
  | ⟨1, _⟩ => show win0_3.index t (1 : Fin 2) * 128 + 1 * (x 1).val = (x 1).val; rw [e1]; omega

/-- The bias window's block is the whole one-row array, at every point. -/
theorem bias_block (c : Dev nD) (t : Fin cfg0.N) : (iblk m c 4 t : Vec Ideal S1x128 .f32) = biasRow m c := by
  obtain ⟨-, -, -, -, -, -, -, -, e0, e1, -⟩ := idx_facts t
  funext x
  unfold iblk
  rw [View.read_apply]
  show biasRow m c _ = biasRow m c x
  refine congrArg (biasRow m c) (funext fun a => Fin.ext ?_)
  match a with
  | ⟨0, _⟩ => show win0_4.index t (0 : Fin 2) * 1 + 1 * (x 0).val = (x 0).val; rw [e0]; omega
  | ⟨1, _⟩ => show win0_4.index t (1 : Fin 2) * 128 + 1 * (x 1).val = (x 1).val; rw [e1]; omega

/-! ## Which rows a result block holds, and that the blocks cover -/

theorem mem_lengths_block (t : Fin cfg0.N) (i : S1601536x1.Idx) :
    i ∈ ((cfg0.win 5).blk t).view.set ↔ ∀ a : Fin 2, win0_5.index t a * S2048x1.size a ≤ (i a).val ∧ (i a).val < win0_5.index t a * S2048x1.size a + S2048x1.size a := by
  show i ∈ ((View.whole main_v23_0).slice (win0_5.rect t)).set ↔ _
  rw [View.set_slice_whole, Rect.mem_set_unit]
  exact Iff.rfl

theorem mem_units_block (t : Fin cfg0.N) (i : S1601536x3.Idx) :
    i ∈ ((cfg0.win 6).blk t).view.set ↔ ∀ a : Fin 2, win0_6.index t a * S2048x3.size a ≤ (i a).val ∧ (i a).val < win0_6.index t a * S2048x3.size a + S2048x3.size a := by
  show i ∈ ((View.whole main_v23_1).slice (win0_6.rect t)).set ↔ _
  rw [View.set_slice_whole, Rect.mem_set_unit]
  exact Iff.rfl

theorem mem_features_block (t : Fin cfg0.N) (i : S1601536x128.Idx) :
    i ∈ ((cfg0.win 7).blk t).view.set ↔ ∀ a : Fin 2, win0_7.index t a * S2048x128.size a ≤ (i a).val ∧ (i a).val < win0_7.index t a * S2048x128.size a + S2048x128.size a := by
  show i ∈ ((View.whole main_v23_2).slice (win0_7.rect t)).set ↔ _
  rw [View.set_slice_whole, Rect.mem_set_unit]
  exact Iff.rfl

/-- The point whose blocks hold row `r`: `r / 2048`. -/
def pointOf (r : Nat) (hr : r < 1601536) : Fin cfg0.N := ⟨r / 2048, by rw [show cfg0.N = 782 from N_0]; omega⟩

theorem cover_lengths (i : S1601536x1.Idx) : ∃ t : Fin cfg0.N, (cfg0.win 5).flush t = true ∧ i ∈ ((cfg0.win 5).blk t).view.set := by
  have h0 : (i 0).val < 1601536 := (i 0).isLt
  have h1 : (i 1).val < 1 := (i 1).isLt
  refine ⟨pointOf (i 0).val h0, flush0_5 _, ?_⟩
  rw [mem_lengths_block]
  obtain ⟨-, -, -, -, -, -, -, -, -, -, e0, e1, -⟩ := idx_facts (pointOf (i 0).val h0)
  intro a
  match a with
  | ⟨0, _⟩ => show win0_5.index (pointOf (i 0).val h0) (0 : Fin 2) * 2048 ≤ (i 0).val ∧ (i 0).val < win0_5.index (pointOf (i 0).val h0) (0 : Fin 2) * 2048 + 2048
              rw [e0]; show (i 0).val / 2048 * 2048 ≤ (i 0).val ∧ (i 0).val < (i 0).val / 2048 * 2048 + 2048; omega
  | ⟨1, _⟩ => show win0_5.index (pointOf (i 0).val h0) (1 : Fin 2) * 1 ≤ (i 1).val ∧ (i 1).val < win0_5.index (pointOf (i 0).val h0) (1 : Fin 2) * 1 + 1
              rw [e1]; omega

theorem cover_units (i : S1601536x3.Idx) : ∃ t : Fin cfg0.N, (cfg0.win 6).flush t = true ∧ i ∈ ((cfg0.win 6).blk t).view.set := by
  have h0 : (i 0).val < 1601536 := (i 0).isLt
  have h1 : (i 1).val < 3 := (i 1).isLt
  refine ⟨pointOf (i 0).val h0, flush0_6 _, ?_⟩
  rw [mem_units_block]
  obtain ⟨-, -, -, -, -, -, -, -, -, -, -, -, e0, e1, -⟩ := idx_facts (pointOf (i 0).val h0)
  intro a
  match a with
  | ⟨0, _⟩ => show win0_6.index (pointOf (i 0).val h0) (0 : Fin 2) * 2048 ≤ (i 0).val ∧ (i 0).val < win0_6.index (pointOf (i 0).val h0) (0 : Fin 2) * 2048 + 2048
              rw [e0]; show (i 0).val / 2048 * 2048 ≤ (i 0).val ∧ (i 0).val < (i 0).val / 2048 * 2048 + 2048; omega
  | ⟨1, _⟩ => show win0_6.index (pointOf (i 0).val h0) (1 : Fin 2) * 3 ≤ (i 1).val ∧ (i 1).val < win0_6.index (pointOf (i 0).val h0) (1 : Fin 2) * 3 + 3
              rw [e1]; omega

theorem cover_features (i : S1601536x128.Idx) : ∃ t : Fin cfg0.N, (cfg0.win 7).flush t = true ∧ i ∈ ((cfg0.win 7).blk t).view.set := by
  have h0 : (i 0).val < 1601536 := (i 0).isLt
  have h1 : (i 1).val < 128 := (i 1).isLt
  refine ⟨pointOf (i 0).val h0, flush0_7 _, ?_⟩
  rw [mem_features_block]
  obtain ⟨-, -, -, -, -, -, -, -, -, -, -, -, -, -, e0, e1⟩ := idx_facts (pointOf (i 0).val h0)
  intro a
  match a with
  | ⟨0, _⟩ => show win0_7.index (pointOf (i 0).val h0) (0 : Fin 2) * 2048 ≤ (i 0).val ∧ (i 0).val < win0_7.index (pointOf (i 0).val h0) (0 : Fin 2) * 2048 + 2048
              rw [e0]; show (i 0).val / 2048 * 2048 ≤ (i 0).val ∧ (i 0).val < (i 0).val / 2048 * 2048 + 2048; omega
  | ⟨1, _⟩ => show win0_7.index (pointOf (i 0).val h0) (1 : Fin 2) * 128 ≤ (i 1).val ∧ (i 1).val < win0_7.index (pointOf (i 0).val h0) (1 : Fin 2) * 128 + 128
              rw [e1]; omega

end Cert.KernelIdeal.Grid

end
-- ==== Proof.Spec.lean ====
/-
  The mathematics both programs compute, one edge at a time.

  For an edge with displacement vector `e ∈ ℝ³` (node position minus group position):
    * `len e`      — its Euclidean length  √(e₀² + e₁² + e₂²);
    * `unitc e k`  — the k-th coordinate of the unit vector  e / |e|;
    * `cutoff d`   — the cosine cutoff  ½·(cos(d·π/10) + 1)·[d < 10];
    * `rbf d μ β`  — the exponential-normal radial basis value
                      cutoff(d) · exp(−β · (exp(½·(0 − d)) − μ)²);
    * `attr d μ β W b c` — the c-th edge feature  Σⱼ rbf(d, μⱼ, βⱼ)·W[j,c] + b[c].
  Every float literal stays the word it is printed as (`Ideal.ofBits .f32 0x…`), read on the extended reals;
  the constant π here is the single-precision word `0x40490FDB`, divided by the word for ten.

  The second half states the laws that join the two spellings of these quantities met in the programs:
  the product with the single-precision word nearest π/10 against the quotient of the product with the
  word for π by ten (the two words denote 2635359/2²³ and 13176795/2²², whose ratio is exactly ten);
  a truth value widened to 32 bits and read signed against the same truth value read unsigned;
  `0 − β` against `−β`; and `((−β)·x)·x` against `(−β)·(x·x)` (multiplication on the extended reals is
  associative, so no finiteness is needed).
-/
import Idealize.ShloMosaic.PureOps.Ideal
import Idealize.ShloMosaic.PureOps.Ideal.Laws
import Idealize.ShloMosaic.Lib.ValueIdx

noncomputable section

namespace EdgeFeat

open Idealize.ShloMosaic Idealize.ShloMosaic.ValueIdx

/-- Euclidean length of a 3-vector: the square root of the sum of its squared coordinates (the sum seeded
    with the zero word, as both programs seed it). -/
def len (e : Fin 3 → EReal) : EReal :=
  Ideal.sqrt (Ideal.ofBits .f32 0x00000000#32 + ∑ k : Fin 3, e k * e k)

/-- Coordinate `k` of the normalised vector `e / |e|`. -/
def unitc (e : Fin 3 → EReal) (k : Fin 3) : EReal := Ideal.div (e k) (len e)

/-- The indicator of `d < 10` as a number: the comparison's truth value read unsigned. -/
def ind (d : EReal) : EReal :=
  (((Ideal.cmp .olt d (Ideal.ofBits .f32 0x41200000#32)).toNat : ℝ) : EReal)

/-- The cosine cutoff `½·(cos(d·π/10) + 1)·[d < 10]`, with `d·π/10` computed as `(d·π)/10`. -/
def cutoff (d : EReal) : EReal :=
  Ideal.ofBits .f32 0x3F000000#32
      * (Ideal.cos (Ideal.div (d * Ideal.ofBits .f32 0x40490FDB#32) (Ideal.ofBits .f32 0x41200000#32))
          + Ideal.ofBits .f32 0x3F800000#32)
    * ind d

/-- `exp(½·(0 − d))`: the distance mapped into (0, 1]. -/
def decay (d : EReal) : EReal :=
  Ideal.exp (Ideal.ofBits .f32 0x3F000000#32 * (Ideal.ofBits .f32 0x00000000#32 - d))

/-- One radial basis value: `cutoff(d) · exp(−β·(decay(d) − μ)²)`. -/
def rbf (d μ β : EReal) : EReal :=
  cutoff d * Ideal.exp (-β * ((decay d - μ) * (decay d - μ)))

/-- One edge feature: the radial basis row times column `c` of `W`, plus the bias. -/
def attr (d : EReal) (μ β : Fin 50 → EReal) (W : Fin 50 → Fin 128 → EReal) (b : Fin 128 → EReal) (c : Fin 128) : EReal :=
  (∑ j : Fin 50, rbf d (μ j) (β j) * W j c) + b c

/-! ## The three result arrays, as functions of the edge-vector array and the parameters -/

/-- Edge lengths: entry `i` is the length of row `i` of the edge-vector array. -/
def weightArr (ev : (⟨2, ![1600000, 3]⟩ : Shape).Idx → EReal) : (⟨1, ![1600000]⟩ : Shape).Idx → EReal :=
  fun i => len (fun k => ev (ix2 (i 0) k))

/-- Normalised edge vectors: entry `(i, k)` is coordinate `k` of row `i` divided by the row's length. -/
def unitArr (ev : (⟨2, ![1600000, 3]⟩ : Shape).Idx → EReal) : (⟨2, ![1600000, 3]⟩ : Shape).Idx → EReal :=
  fun i => unitc (fun k => ev (ix2 (i 0) k)) (i 1)

/-- Edge features: entry `(i, c)` is feature `c` of the edge whose length is that of row `i`. -/
def attrArr (ev : (⟨2, ![1600000, 3]⟩ : Shape).Idx → EReal) (μ β : (⟨1, ![50]⟩ : Shape).Idx → EReal)
    (W : (⟨2, ![50, 128]⟩ : Shape).Idx → EReal) (b : (⟨1, ![128]⟩ : Shape).Idx → EReal) :
    (⟨2, ![1600000, 128]⟩ : Shape).Idx → EReal :=
  fun i => attr (len (fun k => ev (ix2 (i 0) k))) (fun j => μ (ix1 j)) (fun j => β (ix1 j))
    (fun j c => W (ix2 j c)) (fun c => b (ix1 c)) (i 1)

/-! ## The literals that meet -/

theorem word_pi : Ideal.ofBits .f32 0x40490FDB#32 = ((13176795 / 4194304 : ℝ) : EReal) := by
  simp [Ideal.ofBits, Ideal.ieee, -EReal.coe_mul]; norm_num

theorem word_ten : Ideal.ofBits .f32 0x41200000#32 = ((10 : ℝ) : EReal) := by
  simp [Ideal.ofBits, Ideal.ieee, -EReal.coe_mul]; norm_num

theorem word_pi_tenth : Ideal.ofBits .f32 0x3EA0D97C#32 = ((2635359 / 8388608 : ℝ) : EReal) := by
  simp [Ideal.ofBits, Ideal.ieee, -EReal.coe_mul]; norm_num

/-- The product with the word nearest π/10 is the quotient by ten of the product with the word for π:
    `2635359/2²³ = (13176795/2²²)/10` exactly, and the quotient by the real ten is the product with 1/10. -/
theorem scale_fold (d : EReal) :
    d * Ideal.ofBits .f32 0x3EA0D97C#32
      = Ideal.div (d * Ideal.ofBits .f32 0x40490FDB#32) (Ideal.ofBits .f32 0x41200000#32) := by
  rw [word_pi, word_ten, word_pi_tenth, Ideal.div_coe (by norm_num : (10 : ℝ) ≠ 0), mul_assoc, ← EReal.coe_mul]
  norm_num

/-- A truth value widened to 32 bits and read as a signed integer is the truth value read unsigned. -/
theorem signed_wide_bit (b : BitVec 1) : (((b.setWidth 32).toInt : ℝ) : EReal) = ((b.toNat : ℝ) : EReal) := by
  have h : b = 0#1 ∨ b = 1#1 := by
    rcases (by decide : ∀ b : BitVec 1, b = 0#1 ∨ b = 1#1) b with h | h
    · exact Or.inl h
    · exact Or.inr h
  rcases h with rfl | rfl <;> simp

/-- The cutoff as the kernel spells it: the folded constant, and the indicator through a 32-bit signed word. -/
theorem cutoff_folded (d : EReal) :
    Ideal.ofBits .f32 0x3F000000#32
        * (Ideal.cos (d * Ideal.ofBits .f32 0x3EA0D97C#32) + Ideal.ofBits .f32 0x3F800000#32)
      * ((((Ideal.cmp .olt d (Ideal.ofBits .f32 0x41200000#32)).setWidth 32).toInt : ℝ) : EReal)
      = cutoff d := by
  unfold cutoff ind
  rw [scale_fold, signed_wide_bit]

/-- The basis value as the kernel spells it: `0 − β` for `−β`, and the square taken one factor at a time. -/
theorem rbf_left_assoc (d μ β : EReal) :
    cutoff d * Ideal.exp (((Ideal.ofBits .f32 0x00000000#32 - β) * (decay d - μ)) * (decay d - μ))
      = rbf d μ β := by
  unfold rbf
  rw [Ideal.ofBits_zero_f32, zero_sub, mul_assoc]

end EdgeFeat

end
-- ==== Proof.KernelPayload.lean ====
/-
  The kernel body's stored values, read one entry at a time.

  The body loads a block of 2048 edge vectors and the parameter blocks and stores three values:
  the lengths (a 2048×1 column), the normalised vectors (2048×3) and the features (2048×128).
  Each stored entry depends on ONE row of the edge-vector block: entry (r, ·) of the lengths is the
  length of row r; entry (r, k) of the normalised block is coordinate k of row r over that length;
  entry (r, j) of the radial basis block is the basis value of that length against mean j and width j;
  entry (r, c) of the feature block is the basis row r times column c of the weight block, plus bias c.
-/
import proofs.«139296_j15607911153859_1_alg».proof.Proof.Gen.KernelIdeal.Skeleton
import proofs.«139296_j15607911153859_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen EdgeFeat

/-! ## The layout steps of the body, read at an index given by coordinates -/

section Layout
variable {α : Type}

/-- A vector `[a]` cast to a column `[a, 1]` reads, at `(i, ·)`, the operand at `i`: both indices have row-major
    position `i`. -/
theorem column_cast_apply {a : ℕ} (x : (⟨1, ![a]⟩ : Shape).Idx → α) (h : (⟨1, ![a]⟩ : Shape).ShapeCasts ⟨2, ![a, 1]⟩)
    (i : Fin a) (z : Fin 1) : shapeCast ⟨2, ![a, 1]⟩ x h (ix2 i z) = x (ix1 i) :=
  shapeCast_apply x h _ _ (by
    have hz : z.val = 0 := by omega
    rw [Shape.rowMajor_val_two, Shape.rowMajor_val_one]
    show i.val = i.val * 1 + z.val
    rw [hz, Nat.mul_one, Nat.add_zero])

/-- A column `[a, 1]` broadcast along the rows to `[a, b]` reads, at `(p, c)`, the column's entry `p`. -/
theorem column_broadcast_apply {a b : ℕ} (v : (⟨2, ![a, 1]⟩ : Shape).Idx → α)
    (h : (⟨2, ![a, 1]⟩ : Shape).Broadcasts ⟨2, ![a, b]⟩) (p : Fin a) (c : Fin b) (z : Fin 1) :
    broadcastTo ⟨2, ![a, b]⟩ v h (ix2 p c) = v (ix2 p z) := by
  refine broadcastTo_apply v h (ix2 p c) (ix2 p z) fun ax => ?_
  match ax with
  | ⟨0, _⟩ =>
    show p.val = if a = 1 then 0 else p.val
    split
    · have := p.isLt; omega
    · rfl
  | ⟨1, _⟩ =>
    show z.val = if (1 : ℕ) = 1 then 0 else c.val
    rw [if_pos rfl]; omega

end Layout

/-- The sum over the three lanes of a 2048×3 block, read at row `r`: the sum of the row's three entries (the
    accumulator is the neutral zero and adds nothing). -/
theorem lane_sum_apply (v : FVec Ideal S2048x3 .f32) (h : S2048x3.Reduces [1] S2048) (hφ : FKind.Formats .f32)
    (hacc : (0x00000000#32 : BitVec (FTy.bits .f32)) = FKind.add.neutral .f32 hφ) (r : Fin 2048) :
    multiReduction (F := Ideal) .add [1] S2048 v 0x00000000#32 h hφ hacc (ix1 r) = ∑ k : Fin 3, v (ix2 r k) := by
  refine (Ideal.multiReduction_add_single v 0x00000000#32 h hφ hacc (ix1 r)).trans ?_
  refine Finset.sum_congr rfl fun k _ => ?_
  exact congrArg v (funext fun a => Fin.ext (by match a with | ⟨0, _⟩ => rfl | ⟨1, _⟩ => rfl))

/-- The body's first cast is to the block's own shape: the loaded block itself. -/
theorem loaded_block (x0 : Vec Ideal S2048x3 .f32) : k0_pay2 (F := Ideal) x0 = x0 := by
  unfold k0_pay2
  exact shapeCast_self x0 _

/-- Entry `(r, ·)` of the stored length column is the length of row `r` of the loaded block. -/
theorem length_entry (x0 : Vec Ideal S2048x3 .f32) (r : Fin 2048) (z : Fin 1) :
    k0_pay3 (F := Ideal) x0 (ix2 r z) = len (fun k => x0 (ix2 r k)) := by
  unfold k0_pay3
  rw [loaded_block]
  show Ideal.sqrt (shapeCast S2048x1 _ _ (ix2 r z)) = Ideal.sqrt _
  refine congrArg Ideal.sqrt ?_
  refine (column_cast_apply _ _ r z).trans ?_
  refine (lane_sum_apply _ _ _ _ r).trans ?_
  rw [Ideal.ofBits_zero_f32, zero_add]
  rfl

/-- Entry `(r, k)` of the stored normalised block is coordinate `k` of row `r` over the row's length. -/
theorem unit_entry (x0 : Vec Ideal S2048x3 .f32) (r : Fin 2048) (k : Fin 3) :
    k0_pay4 (F := Ideal) x0 (ix2 r k) = unitc (fun k => x0 (ix2 r k)) k := by
  unfold k0_pay4
  rw [loaded_block]
  show Ideal.div (x0 (ix2 r k)) (broadcastTo S2048x3 _ _ (ix2 r k)) = Ideal.div _ _
  refine congrArg (Ideal.div (x0 (ix2 r k))) ?_
  refine (column_broadcast_apply _ _ r k 0).trans ?_
  exact length_entry x0 r 0

/-- A column spread along the rows minus a row spread down the columns reads, at `(r, j)`, the column's entry `r` minus
    the row's entry `j`. -/
theorem column_minus_row_apply (p : FVec Ideal S2048x1 .f32) (m : FVec Ideal S1x50 .f32)
    (h1 : S2048x1.Broadcasts S2048x50) (h2 : S1x50.Broadcasts S2048x50) (r : Fin 2048) (j : Fin 50) :
    subf (broadcastTo S2048x50 p h1) (broadcastTo S2048x50 m h2) (ix2 r j)
      = p (ix2 r (0 : Fin 1)) - m (ix2 (0 : Fin 1) j) :=
  (subf_apply _ _ _).trans
    (congrArg₂ (fun a b : EReal => a - b) (column_broadcast_apply p h1 r j 0) (broadcastTo_1b_ab_apply m h2 r j))

/-- Entry `(r, j)` of the radial basis block is the basis value of row `r`'s length against mean `j` and width `j`. -/
theorem basis_entry (x0 : Vec Ideal S2048x3 .f32) (x1 x2 : Vec Ideal S1x50 .f32) (r : Fin 2048) (j : Fin 50) :
    k0_pay5 (F := Ideal) x0 x1 x2 (ix2 r j)
      = rbf (len (fun k => x0 (ix2 r k))) (x1 (ix2 (0 : Fin 1) j)) (x2 (ix2 (0 : Fin 1) j)) := by
  have hd : ∀ z : Fin 1, k0_pay3 (F := Ideal) x0 (ix2 r z) = len (fun k => x0 (ix2 r k)) := length_entry x0 r
  unfold k0_pay5
  rw [shapeCast_self, shapeCast_self]
  -- the entry is the spread cutoff column times the exponential; the two factors are read apart and the specification's law joins them
  refine (mulf_apply _ _ _).trans ?_
  refine Eq.trans ?_ (rbf_left_assoc _ _ _)
  refine congrArg₂ (fun a b : EReal => a * b) ?_ ?_
  · -- the cutoff of row r's length, in the body's spelling
    refine (column_broadcast_apply _ _ r j 0).trans ?_
    rw [← hd 0]
    exact cutoff_folded _
  · -- the exponential of ((0 − β)·(decay − μ))·(decay − μ)
    show Ideal.exp _ = _
    refine congrArg Ideal.exp ?_
    refine (mulf_apply _ _ _).trans ?_
    refine congrArg₂ (fun a b : EReal => a * b)
      ((mulf_apply _ _ _).trans (congrArg₂ (fun a b : EReal => a * b) (broadcastTo_1b_ab_apply _ _ r j) ?_)) ?_ <;>
      (refine (column_minus_row_apply _ _ _ _ r j).trans ?_; rw [← hd 0]; rfl)

/-! ## The body's matrix product, read at an index

The product contracts axis 1 of the 2048×50 operand with axis 0 of the 50×128 operand. At output index `i` and
contraction index `q` the left operand is read at `(i 0, q)` and the right operand at `(q, i 1)`: one lemma per axis. -/

theorem lhs_row (i : S2048x128.Idx) (q : dot_S2048x50_S50x128_S2048x128_1_0_0_1_n_n.contr.Idx) :
    (dot_S2048x50_S50x128_S2048x128_1_0_0_1_n_n.lhsIdx i q 0).val = (i 0).val := by
  unfold DotDims.lhsIdx
  rw [dif_neg (show ¬(0 : Fin S2048x50.rank) ∈ dot_S2048x50_S50x128_S2048x128_1_0_0_1_n_n.lhsBatch by decide),
    dif_pos (show (0 : Fin S2048x50.rank) ∈ dot_S2048x50_S50x128_S2048x128_1_0_0_1_n_n.lhsNonContracting by decide)]
  rfl
theorem lhs_contracted (i : S2048x128.Idx) (q : dot_S2048x50_S50x128_S2048x128_1_0_0_1_n_n.contr.Idx) :
    (dot_S2048x50_S50x128_S2048x128_1_0_0_1_n_n.lhsIdx i q 1).val = (q ⟨0, by decide⟩).val :=
  dot_S2048x50_S50x128_S2048x128_1_0_0_1_n_n.lhsIdx_val_of_single rfl i q
theorem rhs_contracted (i : S2048x128.Idx) (q : dot_S2048x50_S50x128_S2048x128_1_0_0_1_n_n.contr.Idx) :
    (dot_S2048x50_S50x128_S2048x128_1_0_0_1_n_n.rhsIdx i q 0).val = (q ⟨0, by decide⟩).val :=
  dot_S2048x50_S50x128_S2048x128_1_0_0_1_n_n.rhsIdx_val_of_single rfl i q
theorem rhs_column (i : S2048x128.Idx) (q : dot_S2048x50_S50x128_S2048x128_1_0_0_1_n_n.contr.Idx) :
    (dot_S2048x50_S50x128_S2048x128_1_0_0_1_n_n.rhsIdx i q 1).val = (i 1).val := by
  unfold DotDims.rhsIdx
  rw [dif_neg (show ¬(1 : Fin S50x128.rank) ∈ dot_S2048x50_S50x128_S2048x128_1_0_0_1_n_n.rhsBatch by decide),
    dif_pos (show (1 : Fin S50x128.rank) ∈ dot_S2048x50_S50x128_S2048x128_1_0_0_1_n_n.rhsNonContracting by decide)]
  rfl

/-- The product into the zero block, read at `(r, c)`: the sum over the 50 contracted positions of the left operand's
    row `r` times the right operand's column `c` (the contraction index set is re-indexed by its one coordinate). -/
theorem product_apply {φ₁ φ₂ : FTy} (A : FVec Ideal S2048x50 φ₁) (B : FVec Ideal S50x128 φ₂) (r : Fin 2048) (c : Fin 128) :
    matmul (F := Ideal) dot_S2048x50_S50x128_S2048x128_1_0_0_1_n_n none A B (constant (F := Ideal) S2048x128 .f32 0x00000000#32) (ix2 r c)
      = ∑ j : Fin 50, A (ix2 r j) * B (ix2 j c) := by
  simp only [matmul]
  rw [Ideal.matmul_constant_zero_apply, ← Equiv.sum_comp (contrEquiv1 dot_S2048x50_S50x128_S2048x128_1_0_0_1_n_n 50 rfl rfl).symm]
  refine Finset.sum_congr rfl fun k _ => ?_
  have hk := contrEquiv1_symm_val dot_S2048x50_S50x128_S2048x128_1_0_0_1_n_n 50 rfl rfl k
  have el : dot_S2048x50_S50x128_S2048x128_1_0_0_1_n_n.lhsIdx (ix2 r c) ((contrEquiv1 dot_S2048x50_S50x128_S2048x128_1_0_0_1_n_n 50 rfl rfl).symm k) = ix2 r k :=
    funext fun a => Fin.ext (by
      match a with
      | ⟨0, _⟩ => exact lhs_row _ _
      | ⟨1, _⟩ => exact (lhs_contracted _ _).trans hk)
  have er : dot_S2048x50_S50x128_S2048x128_1_0_0_1_n_n.rhsIdx (ix2 r c) ((contrEquiv1 dot_S2048x50_S50x128_S2048x128_1_0_0_1_n_n 50 rfl rfl).symm k) = ix2 k c :=
    funext fun a => Fin.ext (by
      match a with
      | ⟨0, _⟩ => exact (rhs_contracted _ _).trans hk
      | ⟨1, _⟩ => exact rhs_column _ _)
  rw [el, er]

/-- Entry `(r, c)` of the stored feature block is row `r` of the basis block times column `c` of the weight block,
    plus bias `c` (the matrix product into a zero accumulator is the plain sum over the 50 basis functions). -/
theorem feature_entry (v39 : FVec Ideal S2048x50 .f32) (v40 : Vec Ideal S50x128 .f32) (v41 : Vec Ideal S1x128 .f32)
    (r : Fin 2048) (c : Fin 128) :
    k0_pay1 (F := Ideal) v39 v40 v41 (ix2 r c)
      = (∑ j : Fin 50, v39 (ix2 r j) * v40 (ix2 j c)) + v41 (ix2 (0 : Fin 1) c) := by
  unfold k0_pay1
  rw [shapeCast_self]
  refine (addf_apply _ _ _).trans ?_
  -- the narrowing of the two operands is the identity on the ideal values, so the product reads v39 and v40 themselves
  exact congrArg₂ (fun a b : EReal => a + b) (product_apply _ _ r c) (broadcastTo_1b_ab_apply _ _ r c)

end Cert.KernelIdeal.Payload

end
-- ==== Proof.KernelBlocks.lean ====
/-
  From the blocks each grid point writes back to the three whole arrays after the launch.

  The launch walks 782 points; point t reads rows 2048·t … 2048·t + 2047 of the (zero-padded) edge-vector
  array and the whole parameter arrays, and writes rows 2048·t … 2048·t + 2047 of the three result arrays.
  Every entry the body stores depends on one row of the edge-vector block (KernelPayload.lean), so what point
  t writes back is block t of ONE function of the arrays the launch finds: the lengths, the normalised
  vectors and the features of the rows of the padded array. The blocks tile the arrays (row r lies in the
  block of point r / 2048), so after the launch each array IS that function.
-/
import proofs.«139296_j15607911153859_1_alg».proof.Proof.Gen.KernelIdeal.Frame
import proofs.«139296_j15607911153859_1_alg».proof.Proof.KernelGrid
import proofs.«139296_j15607911153859_1_alg».proof.Proof.KernelPayload
import Idealize.ShloMosaic.Lib.Pipeline.Value
import Idealize.ShloMosaic.Lib.ValueIdx

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Grid EdgeFeat

variable (m : (ℓ : Loc nD τ sig) → Buf (Elt Ideal) ℓ)

/-! ## The three functions of the arrays the launch finds -/

/-- The length of each row of the padded edge-vector array, as a one-column array. -/
def lengths (e : S1601536x3.Idx → EReal) : S1601536x1.Idx → EReal :=
  fun i => len (fun k => e (ix2 (i 0) k))

/-- Each row of the padded edge-vector array over its length. -/
def units (e : S1601536x3.Idx → EReal) : S1601536x3.Idx → EReal :=
  fun i => unitc (fun k => e (ix2 (i 0) k)) (i 1)

/-- The features of each row's length, from the one-row mean and width arrays, the weights and the one-row bias. -/
def features (e : S1601536x3.Idx → EReal) (μ β : S1x50.Idx → EReal) (W : S50x128.Idx → EReal) (b : S1x128.Idx → EReal) :
    S1601536x128.Idx → EReal :=
  fun i => attr (len (fun k => e (ix2 (i 0) k))) (fun j => μ (ix2 (0 : Fin 1) j)) (fun j => β (ix2 (0 : Fin 1) j))
    (fun j c => W (ix2 j c)) (fun c => b (ix2 (0 : Fin 1) c)) (i 1)

/-! ## One stored entry, from a block whose rows are rows of the array -/

theorem length_at (x0 : Vec Ideal S2048x3 .f32) (e : S1601536x3.Idx → EReal) (r : Fin 2048) (z : Fin 1) (p : Fin 1601536) (z' : Fin 1)
    (hrow : ∀ k : Fin 3, x0 (ix2 r k) = e (ix2 p k)) :
    k0_pay3 (F := Ideal) x0 (ix2 r z) = lengths e (ix2 p z') := by
  rw [Payload.length_entry]
  show len _ = len _
  exact congrArg len (funext hrow)

theorem unit_at (x0 : Vec Ideal S2048x3 .f32) (e : S1601536x3.Idx → EReal) (r : Fin 2048) (k : Fin 3) (p : Fin 1601536)
    (hrow : ∀ k : Fin 3, x0 (ix2 r k) = e (ix2 p k)) :
    k0_pay4 (F := Ideal) x0 (ix2 r k) = units e (ix2 p k) := by
  rw [Payload.unit_entry]
  show unitc _ k = unitc _ k
  exact congrArg (fun f => unitc f k) (funext hrow)

theorem feature_at (x0 : Vec Ideal S2048x3 .f32) (x1 x2 : Vec Ideal S1x50 .f32) (x3 : Vec Ideal S50x128 .f32) (x4 : Vec Ideal S1x128 .f32)
    (e : S1601536x3.Idx → EReal) (r : Fin 2048) (q : Fin 128) (p : Fin 1601536)
    (hrow : ∀ k : Fin 3, x0 (ix2 r k) = e (ix2 p k)) :
    k0_pay1 (F := Ideal) (k0_pay5 (F := Ideal) x0 x1 x2) x3 x4 (ix2 r q) = features e x1 x2 x3 x4 (ix2 p q) := by
  rw [Payload.feature_entry]
  show _ = attr (len fun k => e (ix2 p k)) _ _ _ _ q
  unfold attr
  refine congrArg (· + x4 (ix2 (0 : Fin 1) q)) (Finset.sum_congr rfl fun j _ => ?_)
  rw [Payload.basis_entry, show (fun k => x0 (ix2 r k)) = (fun k => e (ix2 p k)) from funext hrow]

/-! ## The same, at an index of the block and an index of the array whose rows agree -/

theorem length_block (x0 : Vec Ideal S2048x3 .f32) (e : S1601536x3.Idx → EReal) (y : S2048x1.Idx) (i : S1601536x1.Idx)
    (hrow : ∀ k : Fin 3, x0 (ix2 (y 0) k) = e (ix2 (i 0) k)) :
    k0_pay3 (F := Ideal) x0 y = lengths e i := by
  obtain ⟨r, z, rfl⟩ : ∃ (r : Fin 2048) (z : Fin 1), y = ix2 r z := ⟨y 0, y 1, eq_ix2 y⟩
  obtain ⟨p, z', rfl⟩ : ∃ (p : Fin 1601536) (z' : Fin 1), i = ix2 p z' := ⟨i 0, i 1, eq_ix2 i⟩
  exact length_at x0 e r z p z' hrow

theorem unit_block (x0 : Vec Ideal S2048x3 .f32) (e : S1601536x3.Idx → EReal) (y : S2048x3.Idx) (i : S1601536x3.Idx)
    (hrow : ∀ k : Fin 3, x0 (ix2 (y 0) k) = e (ix2 (i 0) k)) (hcol : (y 1).val = (i 1).val) :
    k0_pay4 (F := Ideal) x0 y = units e i := by
  obtain ⟨r, k, rfl⟩ : ∃ (r : Fin 2048) (k : Fin 3), y = ix2 r k := ⟨y 0, y 1, eq_ix2 y⟩
  obtain ⟨p, k', rfl⟩ : ∃ (p : Fin 1601536) (k' : Fin 3), i = ix2 p k' := ⟨i 0, i 1, eq_ix2 i⟩
  obtain rfl : k = k' := Fin.ext hcol
  exact unit_at x0 e r k p hrow

theorem feature_block (x0 : Vec Ideal S2048x3 .f32) (x1 x2 : Vec Ideal S1x50 .f32) (x3 : Vec Ideal S50x128 .f32) (x4 : Vec Ideal S1x128 .f32)
    (e : S1601536x3.Idx → EReal) (y : S2048x128.Idx) (i : S1601536x128.Idx)
    (hrow : ∀ k : Fin 3, x0 (ix2 (y 0) k) = e (ix2 (i 0) k)) (hcol : (y 1).val = (i 1).val) :
    k0_pay1 (F := Ideal) (k0_pay5 (F := Ideal) x0 x1 x2) x3 x4 y = features e x1 x2 x3 x4 i := by
  obtain ⟨r, q, rfl⟩ : ∃ (r : Fin 2048) (q : Fin 128), y = ix2 r q := ⟨y 0, y 1, eq_ix2 y⟩
  obtain ⟨p, q', rfl⟩ : ∃ (p : Fin 1601536) (q' : Fin 128), i = ix2 p q' := ⟨i 0, i 1, eq_ix2 i⟩
  obtain rfl : q = q' := Fin.ext hcol
  exact feature_at x0 x1 x2 x3 x4 e r q p hrow

/-! ## What a point writes back is its block of the one function -/

theorem flushed_lengths (c : Dev nD) (t : Fin cfg0.N) :
    (dats m 0 c).flushed 5 t = ((cfg0.win 5).blk t).view.read (Elt Ideal) (lengths (edgesP m c)) := by
  show (cfg0.win 5).cut (grid0.coords t) ((dats m 0 c).after 5 t) = _
  rw [after0_5]
  unfold out0_5
  rw [View.canon_unit_zero hz]
  simp only [View.ld_unit_zero (S := S2048x3) hz]
  obtain ⟨-, -, -, -, -, -, -, -, -, -, e0, e1, -⟩ := idx_facts t
  funext j
  refine length_block (iblk m c 0 t) (edgesP m c) j (((cfg0.win 5).blk t).view.emb j) (fun k => ?_)
  refine edges_block m c t _ _ ?_ rfl
  show win0_5.index t (0 : Fin 2) * 2048 + 1 * (j 0).val = t.val * 2048 + (j 0).val
  rw [e0]; omega

theorem flushed_units (c : Dev nD) (t : Fin cfg0.N) :
    (dats m 0 c).flushed 6 t = ((cfg0.win 6).blk t).view.read (Elt Ideal) (units (edgesP m c)) := by
  show (cfg0.win 6).cut (grid0.coords t) ((dats m 0 c).after 6 t) = _
  rw [after0_6]
  unfold out0_6
  rw [View.canon_unit_zero hz]
  simp only [View.ld_unit_zero (S := S2048x3) hz]
  obtain ⟨-, -, -, -, -, -, -, -, -, -, -, -, e0, e1, -⟩ := idx_facts t
  funext j
  refine unit_block (iblk m c 0 t) (edgesP m c) j (((cfg0.win 6).blk t).view.emb j) (fun k => ?_) ?_
  · refine edges_block m c t _ _ ?_ rfl
    show win0_6.index t (0 : Fin 2) * 2048 + 1 * (j 0).val = t.val * 2048 + (j 0).val
    rw [e0]; omega
  · show (j 1).val = win0_6.index t (1 : Fin 2) * 3 + 1 * (j 1).val
    rw [e1]; omega

theorem flushed_features (c : Dev nD) (t : Fin cfg0.N) :
    (dats m 0 c).flushed 7 t = ((cfg0.win 7).blk t).view.read (Elt Ideal)
      (features (edgesP m c) (meansRow m c) (widthsRow m c) (weights m c) (biasRow m c)) := by
  show (cfg0.win 7).cut (grid0.coords t) ((dats m 0 c).after 7 t) = _
  rw [after0_7]
  unfold out0_7
  rw [View.canon_unit_zero hz]
  simp only [View.ld_unit_zero (S := S2048x3) hz, View.ld_unit_zero (S := S1x50) hz, View.ld_unit_zero (S := S50x128) hz,
    View.ld_unit_zero (S := S1x128) hz]
  rw [means_block m c t, widths_block m c t, weights_block m c t, bias_block m c t]
  obtain ⟨-, -, -, -, -, -, -, -, -, -, -, -, -, -, e0, e1⟩ := idx_facts t
  funext j
  refine feature_block (iblk m c 0 t) (meansRow m c) (widthsRow m c) (weights m c) (biasRow m c) (edgesP m c) j
    (((cfg0.win 7).blk t).view.emb j) (fun k => ?_) ?_
  · refine edges_block m c t _ _ ?_ rfl
    show win0_7.index t (0 : Fin 2) * 2048 + 1 * (j 0).val = t.val * 2048 + (j 0).val
    rw [e0]; omega
  · show (j 1).val = win0_7.index t (1 : Fin 2) * 128 + 1 * (j 1).val
    rw [e1]; omega

/-! ## The three arrays after the launch -/

theorem final_lengths (c : Dev nD) : (dats m 0 c).arrAt 5 cfg0.N = lengths (edgesP m c) :=
  (dats m 0 c).arrAt_eq_of_cover 5 (lengths (edgesP m c)) (fun t _ => flushed_lengths m c t) cover_lengths

theorem final_units (c : Dev nD) : (dats m 0 c).arrAt 6 cfg0.N = units (edgesP m c) :=
  (dats m 0 c).arrAt_eq_of_cover 6 (units (edgesP m c)) (fun t _ => flushed_units m c t) cover_units

theorem final_features (c : Dev nD) :
    (dats m 0 c).arrAt 7 cfg0.N = features (edgesP m c) (meansRow m c) (widthsRow m c) (weights m c) (biasRow m c) :=
  (dats m 0 c).arrAt_eq_of_cover 7 _ (fun t _ => flushed_features m c t) cover_features

end Cert.KernelIdeal.Blocks

end
-- ==== Proof.KernelTail.lean ====
/-
  The kernel program's three results as functions of its edge-vector array and its parameters.

  Before the launch the program gathers the node and group positions along the two index rows, subtracts
  (the edge-vector array, 1600000×3), pads it with 1536 zero rows, and lays the means, widths and bias out as
  one-row arrays. After the launch it keeps the first 1600000 rows of the three arrays the launch wrote (and
  reads the length column as a vector). A kept row is below the padding, so it is a row of the edge-vector
  array itself: the results are the lengths, the features and the normalised vectors of its rows.
-/
import proofs.«139296_j15607911153859_1_alg».proof.Proof.KernelBlocks
import Idealize.ShloMosaic.Lib.StableHlo.Run
import Idealize.ShloMosaic.Lib.KernelVsHost
import Idealize.ShloMosaic.Lib.ValueLayout

noncomputable section

namespace Cert.KernelIdeal.Tail

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Grid Cert.KernelIdeal.Blocks EdgeFeat

variable (m : (ℓ : Loc nD τ sig) → Buf (Elt Ideal) ℓ) (ρ : Dev nD → PrngReg)

/-- The edge-vector array: gathered node positions minus gathered group positions. -/
abbrev edges (c : Dev nD) : S1600000x3.Idx → EReal := V m c main_v18

/-! ## The arrays the launch finds, from the program's own values -/

set_option maxHeartbeats 8000000 in
/-- The padded array is the edge-vector array with 1536 rows of the padding value below it. -/
theorem edgesP_eq (c : Dev nD) :
    edgesP m c = pad S1601536x3 ![0, 0] ![1536, 0] ![0, 0] (edges m c)
      (sitofp (F := Ideal) .f32 (constantI S_ 32 0#32)) pads_S1600000x3_S1601536x3_015360_000 h_S_ := by
  show (V m c main_v19 : S1601536x3.Idx → EReal) = pad S1601536x3 ![0, 0] ![1536, 0] ![0, 0] (V m c main_v18 : S1600000x3.Idx → EReal) _ _ _
  dsimp only [Gen.V, Gen.V0]
  simp only [Gen.hostOps0, Gen.hostOps0_1, Gen.hostOps0_2, List.flatten_cons, List.flatten_nil, List.append_nil, List.cons_append, List.nil_append]
  after_results_simp
  rfl

/-- A row of the padded array above the padding is the same row of the edge-vector array. -/
theorem edgesP_row (c : Dev nD) (p : Fin 1601536) (p' : Fin 1600000) (hp : p.val = p'.val) (k : Fin 3) :
    edgesP m c (ix2 p k) = edges m c (ix2 p' k) := by
  rw [edgesP_eq]
  refine pad_apply_of_inside _ _ _ _ _ _ _ (ix2 p k) (ix2 p' k) (fun a => ?_)
  match a with
  | ⟨0, _⟩ => show p.val = 0 + p'.val * (0 + 1); omega
  | ⟨1, _⟩ => show k.val = 0 + k.val * (0 + 1); omega

set_option maxHeartbeats 8000000 in
theorem meansRow_eq (c : Dev nD) :
    meansRow m c = shapeCast S1x50 (m ((c : Thread nD τ).loc main_arg3)) shapeCasts_S50_S1x50 := by
  show (V m c main_v20 : S1x50.Idx → EReal) = _
  dsimp only [Gen.V, Gen.V0]
  simp only [Gen.hostOps0, Gen.hostOps0_1, Gen.hostOps0_2, List.flatten_cons, List.flatten_nil, List.append_nil, List.cons_append, List.nil_append]
  after_results_simp
  rfl

set_option maxHeartbeats 8000000 in
theorem widthsRow_eq (c : Dev nD) :
    widthsRow m c = shapeCast S1x50 (m ((c : Thread nD τ).loc main_arg4)) shapeCasts_S50_S1x50 := by
  show (V m c main_v21 : S1x50.Idx → EReal) = _
  dsimp only [Gen.V, Gen.V0]
  simp only [Gen.hostOps0, Gen.hostOps0_1, Gen.hostOps0_2, List.flatten_cons, List.flatten_nil, List.append_nil, List.cons_append, List.nil_append]
  after_results_simp
  rfl

set_option maxHeartbeats 8000000 in
theorem biasRow_eq (c : Dev nD) :
    biasRow m c = shapeCast S1x128 (m ((c : Thread nD τ).loc main_arg6)) shapeCasts_S128_S1x128 := by
  show (V m c main_v22 : S1x128.Idx → EReal) = _
  dsimp only [Gen.V, Gen.V0]
  simp only [Gen.hostOps0, Gen.hostOps0_1, Gen.hostOps0_2, List.flatten_cons, List.flatten_nil, List.append_nil, List.cons_append, List.nil_append]
  after_results_simp
  rfl

theorem weights_eq (c : Dev nD) : weights m c = m ((c : Thread nD τ).loc main_arg5) := V_main_arg5 m c

/-! ## The program's results -/

/-- The length result: the kept rows of the length column, read as a vector. -/
theorem result_lengths (c : Dev nD) :
    (Pipeline.afterTail₀ cfgs (dats m) 0 (V0 m) [hostOps1] c main_v25 : S1600000.Idx → EReal) = weightArr (edges m c) := by
  unfold Pipeline.afterTail₀
  show StableHlo.after hostOps1 _ (Proc.devRef .tc main_v25) = _
  after_results
  rw [show Pipeline.withArrays (cfgs 0).spec c (V0 m c) (fun w => (dats m 0 c).arrAt w (cfgs 0).N) (Proc.devRef .tc main_v23_0)
      = lengths (edgesP m c) from (Pipeline.withArrays_arr spec0 launch0.win.arr_inj c _ _ 5).trans (final_lengths m c)]
  funext i
  obtain ⟨r, rfl⟩ : ∃ r : Fin 1600000, i = ix1 r := ⟨i 0, eq_ix1 i⟩
  show shapeCast S1600000 (extractStridedSlice S1600000x1 ![0, 0] (lengths (edgesP m c)) slices_S1601536x1_S1600000x1_0_0) shapeCasts_S1600000x1_S1600000 (ix1 r) = _
  refine (shapeCast_apply _ shapeCasts_S1600000x1_S1600000 (ix1 r) (ix2 r (0 : Fin 1)) (by
    rw [Shape.rowMajor_val_two, Shape.rowMajor_val_one]; show r.val * 1 + 0 = r.val; omega)).trans ?_
  refine (slice2_axis0_apply 0 _ slices_S1601536x1_S1600000x1_0_0 r (0 : Fin 1) ⟨r.val, by omega⟩ (by show r.val = 0 + r.val; omega)).trans ?_
  show len _ = len _
  exact congrArg len (funext fun k => edgesP_row m c _ r rfl k)

/-- The normalised-vector result: the kept rows. -/
theorem result_units (c : Dev nD) :
    (Pipeline.afterTail₀ cfgs (dats m) 0 (V0 m) [hostOps1] c main_v26 : S1600000x3.Idx → EReal) = unitArr (edges m c) := by
  unfold Pipeline.afterTail₀
  show StableHlo.after hostOps1 _ (Proc.devRef .tc main_v26) = _
  after_results
  rw [show Pipeline.withArrays (cfgs 0).spec c (V0 m c) (fun w => (dats m 0 c).arrAt w (cfgs 0).N) (Proc.devRef .tc main_v23_1)
      = units (edgesP m c) from (Pipeline.withArrays_arr spec0 launch0.win.arr_inj c _ _ 6).trans (final_units m c)]
  funext i
  obtain ⟨r, k, rfl⟩ : ∃ (r : Fin 1600000) (k : Fin 3), i = ix2 r k := ⟨i 0, i 1, eq_ix2 i⟩
  refine (slice2_axis0_apply 0 _ slices_S1601536x3_S1600000x3_0_0 r k ⟨r.val, by omega⟩ (by show r.val = 0 + r.val; omega)).trans ?_
  show unitc _ k = unitc _ k
  exact congrArg (fun f => unitc f k) (funext fun k' => edgesP_row m c _ r rfl k')

/-- The feature result: the kept rows, the one-row parameter arrays read back as the vectors they were laid out from. -/
theorem result_features (c : Dev nD) :
    (Pipeline.afterTail₀ cfgs (dats m) 0 (V0 m) [hostOps1] c main_v27 : S1600000x128.Idx → EReal)
      = attrArr (edges m c) (m ((c : Thread nD τ).loc main_arg3)) (m ((c : Thread nD τ).loc main_arg4))
          (m ((c : Thread nD τ).loc main_arg5)) (m ((c : Thread nD τ).loc main_arg6)) := by
  unfold Pipeline.afterTail₀
  show StableHlo.after hostOps1 _ (Proc.devRef .tc main_v27) = _
  after_results
  rw [show Pipeline.withArrays (cfgs 0).spec c (V0 m c) (fun w => (dats m 0 c).arrAt w (cfgs 0).N) (Proc.devRef .tc main_v23_2)
      = features (edgesP m c) (meansRow m c) (widthsRow m c) (weights m c) (biasRow m c)
      from (Pipeline.withArrays_arr spec0 launch0.win.arr_inj c _ _ 7).trans (final_features m c)]
  funext i
  obtain ⟨r, q, rfl⟩ : ∃ (r : Fin 1600000) (q : Fin 128), i = ix2 r q := ⟨i 0, i 1, eq_ix2 i⟩
  refine (slice2_axis0_apply 0 _ slices_S1601536x128_S1600000x128_0_0 r q ⟨r.val, by omega⟩ (by show r.val = 0 + r.val; omega)).trans ?_
  show attr (len _) _ _ _ _ q = attr (len _) _ _ _ _ q
  rw [show (fun k => edgesP m c (ix2 (⟨r.val, by omega⟩ : Fin 1601536) k)) = (fun k => edges m c (ix2 r k)) from
      funext fun k => edgesP_row m c _ r rfl k,
    meansRow_eq, widthsRow_eq, biasRow_eq, weights_eq]
  have hμ : (fun j : Fin 50 => shapeCast S1x50 (m ((c : Thread nD τ).loc main_arg3)) shapeCasts_S50_S1x50 (ix2 (0 : Fin 1) j))
      = fun j => (m ((c : Thread nD τ).loc main_arg3) : S50.Idx → EReal) (ix1 j) :=
    funext fun j => shapeCast_a_1a_apply _ shapeCasts_S50_S1x50 (0 : Fin 1) j
  have hβ : (fun j : Fin 50 => shapeCast S1x50 (m ((c : Thread nD τ).loc main_arg4)) shapeCasts_S50_S1x50 (ix2 (0 : Fin 1) j))
      = fun j => (m ((c : Thread nD τ).loc main_arg4) : S50.Idx → EReal) (ix1 j) :=
    funext fun j => shapeCast_a_1a_apply _ shapeCasts_S50_S1x50 (0 : Fin 1) j
  have hb : (fun q' : Fin 128 => shapeCast S1x128 (m ((c : Thread nD τ).loc main_arg6)) shapeCasts_S128_S1x128 (ix2 (0 : Fin 1) q'))
      = fun q' => (m ((c : Thread nD τ).loc main_arg6) : S128.Idx → EReal) (ix1 q') :=
    funext fun q' => shapeCast_a_1a_apply _ shapeCasts_S128_S1x128 (0 : Fin 1) q'
  rw [hμ, hβ, hb]

/-! ## The run, read -/

/-- Every weakly fair execution of the kernel program ends with its three float results at the lengths, features and
    normalised vectors of the rows of its edge-vector array, the index array returned as it came, and every
    argument unchanged. -/
theorem run : θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_v25) = weightArr (edges m c)
      ∧ r.2.mem ((c.tc : Thread nD τ).loc main_v27) = attrArr (edges m c) (m ((c.tc : Thread nD τ).loc main_arg3))
          (m ((c.tc : Thread nD τ).loc main_arg4)) (m ((c.tc : Thread nD τ).loc main_arg5)) (m ((c.tc : Thread nD τ).loc main_arg6))
      ∧ r.2.mem ((c.tc : Thread nD τ).loc main_v26) = unitArr (edges m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(((h c).2 main_arg0 (Pipeline.mem_restRefs_of main_arg0 (by decide) (by decide))).trans (W_main_arg0 m (dats m) c)),
      (((h c).2 main_v25 (Pipeline.mem_restRefs_of main_v25 (by decide) (by decide))).trans (result_lengths m c)),
      (((h c).2 main_v27 (Pipeline.mem_restRefs_of main_v27 (by decide) (by decide))).trans (result_features m c)),
      (((h c).2 main_v26 (Pipeline.mem_restRefs_of main_v26 (by decide) (by decide))).trans (result_units m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 3).trans (((dats m 0 c).arrAt_in 3 rfl _).trans ((A_eq m c 3).trans (V_main_arg5 m c))),
      (((h c).2 main_arg6 (Pipeline.mem_restRefs_of main_arg6 (by decide) (by decide))).trans (W_main_arg6 m (dats m) c))⟩)
    (run_main m ρ)

end Cert.KernelIdeal.Tail

end
-- ==== Proof.RefValue.lean ====
/-
  The reference's three results, read one entry at a time, are the functions of Spec.lean applied to the
  reference's own edge-vector array (the gathered node positions minus the gathered group positions).
-/
import proofs.«139296_j15607911153859_1_alg».proof.Proof.Gen.ReferenceIdeal.Read
import proofs.«139296_j15607911153859_1_alg».proof.Proof.Spec
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Read EdgeFeat

/-- The sum index of the squared-coordinate sum at row `r`, coordinate `k`, is the entry `(r, k)`. -/
theorem sq_idx (r : Fin 1600000) (k : Fin 3) : idx_main_call0_v1 (ix1 r) k = ix2 r k :=
  funext fun a => Fin.ext (by match a with | ⟨0, _⟩ => rfl | ⟨1, _⟩ => rfl)

/-- The length stage at row `r` is the length of row `r` of the edge-vector array: the square root of the
    zero word plus the three squared coordinates. -/
theorem len_row (x0 : (⟨S2x1600000, .i32⟩ : BufTy).Contents (Elt Ideal)) (x1 : (⟨S50000x3, .f32⟩ : BufTy).Contents (Elt Ideal))
    (x2 : (⟨S5000x3, .f32⟩ : BufTy).Contents (Elt Ideal)) (r : Fin 1600000) :
    val_main_v19 (F := Ideal) x0 x1 x2 (ix1 r) = len (fun k => val_main_v18 (F := Ideal) x0 x1 x2 (ix2 r k)) := by
  unfold len
  rw [val_main_v19_apply, val_main_call0_v1_apply, val_main_call0_cst_apply]
  simp only [val_main_call0_v0_apply, sq_idx]
  rfl

/-- The reference's edge lengths are the lengths of the rows of its edge-vector array. -/
theorem weight_eq (x0 : (⟨S2x1600000, .i32⟩ : BufTy).Contents (Elt Ideal)) (x1 : (⟨S50000x3, .f32⟩ : BufTy).Contents (Elt Ideal))
    (x2 : (⟨S5000x3, .f32⟩ : BufTy).Contents (Elt Ideal)) :
    val_main_v19 (F := Ideal) x0 x1 x2 = weightArr (val_main_v18 (F := Ideal) x0 x1 x2) := by
  funext i
  obtain ⟨r, rfl⟩ : ∃ r : Fin 1600000, i = ix1 r := ⟨i 0, eq_ix1 i⟩
  exact len_row x0 x1 x2 r

/-- Broadcasting a length column back over the three coordinates reads row `r` of the length vector. -/
theorem bcast3_idx (r : Fin 1600000) (k : Fin 3) : idx_main_v20 (idx_main_v21 (ix2 r k)) = ix1 r :=
  funext fun a => Fin.ext (by match a with | ⟨0, _⟩ => rfl)

/-- The reference's normalised vectors are the rows of its edge-vector array over their lengths. -/
theorem unit_eq (x0 : (⟨S2x1600000, .i32⟩ : BufTy).Contents (Elt Ideal)) (x1 : (⟨S50000x3, .f32⟩ : BufTy).Contents (Elt Ideal))
    (x2 : (⟨S5000x3, .f32⟩ : BufTy).Contents (Elt Ideal)) :
    val_main_v22 (F := Ideal) x0 x1 x2 = unitArr (val_main_v18 (F := Ideal) x0 x1 x2) := by
  funext i
  obtain ⟨r, k, rfl⟩ : ∃ (r : Fin 1600000) (k : Fin 3), i = ix2 r k := ⟨i 0, i 1, eq_ix2 i⟩
  show val_main_v22 (F := Ideal) x0 x1 x2 (ix2 r k)
      = Ideal.div (val_main_v18 (F := Ideal) x0 x1 x2 (ix2 r k)) (len (fun k => val_main_v18 (F := Ideal) x0 x1 x2 (ix2 r k)))
  rw [val_main_v22_apply, val_main_v21_apply, val_main_v20_apply, bcast3_idx, len_row]
  rfl

/-! ## The edge features, stage by stage at row `r` -/

/-- The length column `[1600000, 1]` at `(r, 0)` reads row `r` of the length vector. -/
theorem col_idx (r : Fin 1600000) : idx_main_v23 (ix2 r (0 : Fin 1)) = ix1 r :=
  funext fun a => Fin.ext (by match a with | ⟨0, _⟩ => rfl)

/-- The length column at `(r, 0)` is the length of row `r`. -/
theorem col_row (x0 : (⟨S2x1600000, .i32⟩ : BufTy).Contents (Elt Ideal)) (x1 : (⟨S50000x3, .f32⟩ : BufTy).Contents (Elt Ideal))
    (x2 : (⟨S5000x3, .f32⟩ : BufTy).Contents (Elt Ideal)) (r : Fin 1600000) :
    val_main_v23 (F := Ideal) x0 x1 x2 (ix2 r (0 : Fin 1)) = len (fun k => val_main_v18 (F := Ideal) x0 x1 x2 (ix2 r k)) := by
  rw [val_main_v23_apply, col_idx, len_row]

/-- The cutoff column at `(r, 0)` is the cosine cutoff of the length of row `r`. -/
theorem cutoff_row (x0 : (⟨S2x1600000, .i32⟩ : BufTy).Contents (Elt Ideal)) (x1 : (⟨S50000x3, .f32⟩ : BufTy).Contents (Elt Ideal))
    (x2 : (⟨S5000x3, .f32⟩ : BufTy).Contents (Elt Ideal)) (r : Fin 1600000) :
    val_main_v36 (F := Ideal) x0 x1 x2 (ix2 r (0 : Fin 1))
      = cutoff (len (fun k => val_main_v18 (F := Ideal) x0 x1 x2 (ix2 r k))) := by
  unfold cutoff ind
  rw [val_main_v36_apply, val_main_v32_apply, val_main_v31_apply, val_main_cst_5_apply, val_main_v30_apply,
    val_main_v28_apply, val_main_v27_apply, val_main_v25_apply, val_main_v24_apply, val_main_cst_apply,
    val_main_v26_apply, val_main_cst_3_apply, val_main_v29_apply, val_main_cst_4_apply, val_main_v35_apply,
    val_main_v34_apply, val_main_v33_apply, val_main_cst_6_apply, col_row]
  rfl

/-- The decay column at `(r, 0)` is `exp(½·(0 − d))` at the length `d` of row `r`. -/
theorem decay_row (x0 : (⟨S2x1600000, .i32⟩ : BufTy).Contents (Elt Ideal)) (x1 : (⟨S50000x3, .f32⟩ : BufTy).Contents (Elt Ideal))
    (x2 : (⟨S5000x3, .f32⟩ : BufTy).Contents (Elt Ideal)) (r : Fin 1600000) :
    val_main_v42 (F := Ideal) x0 x1 x2 (ix2 r (0 : Fin 1))
      = decay (len (fun k => val_main_v18 (F := Ideal) x0 x1 x2 (ix2 r k))) := by
  unfold decay
  rw [val_main_v42_apply, val_main_v41_apply, val_main_v40_apply, val_main_cst_8_apply, val_main_v39_apply,
    val_main_v38_apply, val_main_cst_7_apply, col_row]
  rfl

/-- A column `[1600000, 1]` broadcast over the fifty centres reads `(r, 0)` (the decay column). -/
theorem decay_bcast_idx (r : Fin 1600000) (j : Fin 50) : idx_main_v44 (ix2 r j) = ix2 r (0 : Fin 1) :=
  funext fun a => Fin.ext (by match a with | ⟨0, _⟩ => rfl | ⟨1, _⟩ => rfl)

/-- A column `[1600000, 1]` broadcast over the fifty centres reads `(r, 0)` (the cutoff column). -/
theorem cutoff_bcast_idx (r : Fin 1600000) (j : Fin 50) : idx_main_v52 (ix2 r j) = ix2 r (0 : Fin 1) :=
  funext fun a => Fin.ext (by match a with | ⟨0, _⟩ => rfl | ⟨1, _⟩ => rfl)

/-- The centres, broadcast to a row and then over the edges, read entry `j`. -/
theorem centre_idx (r : Fin 1600000) (j : Fin 50) : idx_main_v43 (idx_main_v45 (ix2 r j)) = ix1 j :=
  funext fun a => Fin.ext (by match a with | ⟨0, _⟩ => rfl)

/-- The negated widths, broadcast to a row and then over the edges, read entry `j`. -/
theorem width_idx (r : Fin 1600000) (j : Fin 50) : idx_main_v48 (idx_main_v49 (ix2 r j)) = ix1 j :=
  funext fun a => Fin.ext (by match a with | ⟨0, _⟩ => rfl)

/-- The basis stage at `(r, j)` is the radial basis value of the length of row `r` at centre `j`, width `j`. -/
theorem rbf_row (x0 : (⟨S2x1600000, .i32⟩ : BufTy).Contents (Elt Ideal)) (x1 : (⟨S50000x3, .f32⟩ : BufTy).Contents (Elt Ideal))
    (x2 : (⟨S5000x3, .f32⟩ : BufTy).Contents (Elt Ideal)) (x3 x4 : (⟨S50, .f32⟩ : BufTy).Contents (Elt Ideal)) (r : Fin 1600000) (j : Fin 50) :
    val_main_v53 (F := Ideal) x0 x1 x2 x3 x4 (ix2 r j)
      = rbf (len (fun k => val_main_v18 (F := Ideal) x0 x1 x2 (ix2 r k))) (x3 (ix1 j)) (x4 (ix1 j)) := by
  unfold rbf
  rw [val_main_v53_apply, val_main_v52_apply, cutoff_bcast_idx, cutoff_row, val_main_v51_apply, val_main_v50_apply,
    val_main_v49_apply, val_main_v48_apply, width_idx, val_main_v37_apply, val_main_v47_apply, val_main_v46_apply,
    val_main_v44_apply, decay_bcast_idx, decay_row, val_main_v45_apply, val_main_v43_apply, centre_idx]
  rfl

/-- The contraction's left index at output `(r, c)`, summand `j`, is `(r, j)`. -/
theorem lhs_idx (r : Fin 1600000) (c : Fin 128) (j : Fin 50) : lidx_main_v54 (ix2 r c) j = ix2 r j :=
  funext fun a => Fin.ext (by match a with | ⟨0, _⟩ => rfl | ⟨1, _⟩ => rfl)

/-- The contraction's right index at output `(r, c)`, summand `j`, is `(j, c)`. -/
theorem rhs_idx (r : Fin 1600000) (c : Fin 128) (j : Fin 50) : ridx_main_v54 (ix2 r c) j = ix2 j c :=
  funext fun a => Fin.ext (by match a with | ⟨0, _⟩ => rfl | ⟨1, _⟩ => rfl)

/-- The bias, broadcast to a row and then over the edges, reads entry `c`. -/
theorem bias_idx (r : Fin 1600000) (c : Fin 128) : idx_main_v55 (idx_main_v56 (ix2 r c)) = ix1 c :=
  funext fun a => Fin.ext (by match a with | ⟨0, _⟩ => rfl)

/-- The feature stage at `(r, c)` is feature `c` of the length of row `r`. -/
theorem attr_row (x0 : (⟨S2x1600000, .i32⟩ : BufTy).Contents (Elt Ideal)) (x1 : (⟨S50000x3, .f32⟩ : BufTy).Contents (Elt Ideal))
    (x2 : (⟨S5000x3, .f32⟩ : BufTy).Contents (Elt Ideal)) (x3 x4 : (⟨S50, .f32⟩ : BufTy).Contents (Elt Ideal))
    (x5 : (⟨S50x128, .f32⟩ : BufTy).Contents (Elt Ideal)) (x6 : (⟨S128, .f32⟩ : BufTy).Contents (Elt Ideal))
    (r : Fin 1600000) (c : Fin 128) :
    val_main_v57 (F := Ideal) x0 x1 x2 x3 x4 x5 x6 (ix2 r c)
      = attr (len (fun k => val_main_v18 (F := Ideal) x0 x1 x2 (ix2 r k))) (fun j => x3 (ix1 j)) (fun j => x4 (ix1 j))
          (fun j c => x5 (ix2 j c)) (fun c => x6 (ix1 c)) c := by
  unfold attr
  rw [val_main_v57_apply, val_main_v54_apply, val_main_v56_apply, val_main_v55_apply, bias_idx]
  simp only [lhs_idx, rhs_idx, rbf_row]
  rfl

/-- The reference's edge features are the features of the lengths of the rows of its edge-vector array. -/
theorem attr_eq (x0 : (⟨S2x1600000, .i32⟩ : BufTy).Contents (Elt Ideal)) (x1 : (⟨S50000x3, .f32⟩ : BufTy).Contents (Elt Ideal))
    (x2 : (⟨S5000x3, .f32⟩ : BufTy).Contents (Elt Ideal)) (x3 x4 : (⟨S50, .f32⟩ : BufTy).Contents (Elt Ideal))
    (x5 : (⟨S50x128, .f32⟩ : BufTy).Contents (Elt Ideal)) (x6 : (⟨S128, .f32⟩ : BufTy).Contents (Elt Ideal)) :
    val_main_v57 (F := Ideal) x0 x1 x2 x3 x4 x5 x6 = attrArr (val_main_v18 (F := Ideal) x0 x1 x2) x3 x4 x5 x6 := by
  funext i
  obtain ⟨r, c, rfl⟩ : ∃ (r : Fin 1600000) (c : Fin 128), i = ix2 r c := ⟨i 0, i 1, eq_ix2 i⟩
  exact attr_row x0 x1 x2 x3 x4 x5 x6 r c

end Cert.ReferenceIdeal.RefValue

end
-- ==== Proof.EdgeVectors.lean ====
/-
  The two programs form the edge-vector array by the same operations on the same arguments: each slices the two
  rows of the index array, wraps a negative index around by the table's length, gathers the rows of the node and
  group positions at those indices, and subtracts. Read on the kernel program's arguments, its array is the
  reference's stage of the same name applied to them.
-/
import proofs.«139296_j15607911153859_1_alg».proof.Proof.KernelTail
import proofs.«139296_j15607911153859_1_alg».proof.Proof.Gen.ReferenceIdeal.Read
import Idealize.ShloMosaic.Lib.StableHlo.Run

noncomputable section

namespace Cert.EdgeVectors

open Idealize.ShloMosaic Idealize.ShloMosaic.TcCoe Idealize.SL.Sem Idealize.ShloMosaic.StableHlo

set_option maxHeartbeats 8000000 in
/-- The kernel program's edge-vector array is the reference's edge-vector stage of the kernel program's arguments. -/
theorem edges_eq (m : (ℓ : Loc Cert.KernelIdeal.nD Cert.KernelIdeal.τ Cert.KernelIdeal.sig) → Buf (Elt Ideal) ℓ) (c : Dev Cert.KernelIdeal.nD) :
    Cert.KernelIdeal.Tail.edges m c
      = Cert.ReferenceIdeal.Read.val_main_v18 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  show (Cert.KernelIdeal.Gen.V m c Cert.KernelIdeal.main_v18 : Cert.KernelIdeal.S1600000x3.Idx → EReal) = _
  dsimp only [Cert.KernelIdeal.Gen.V, Cert.KernelIdeal.Gen.V0]
  simp only [Cert.KernelIdeal.Gen.hostOps0, Cert.KernelIdeal.Gen.hostOps0_1, Cert.KernelIdeal.Gen.hostOps0_2, List.flatten_cons,
    List.flatten_nil, List.append_nil, List.cons_append, List.nil_append]
  after_results_simp
  rfl

end Cert.EdgeVectors

end
-- ==== Proof.lean ====
/-
  The certificate of the bipartite edge-feature kernel against its jnp reference, over the extended reals.

  Both programs form, for each of 1 600 000 edges, the vector from a group position to a node position, and return
  its length, its direction, and 128 features: a cosine cutoff of the length times fifty exponential-normal radial
  basis values, multiplied into a 50×128 weight matrix, plus a bias. The kernel program pads the edge vectors to
  782 blocks of 2048, computes each block in one launch point and drops the padding rows; the reference computes
  whole arrays. Entry by entry they are the same functions of the same edge-vector array (Spec.lean): the kernel
  body's entries are read in KernelPayload.lean, assembled over the grid in KernelGrid.lean and KernelBlocks.lean
  and through the padding and the final slices in KernelTail.lean; the reference's in RefValue.lean; that the two
  edge-vector arrays are one in EdgeVectors.lean. The spellings that differ — the cutoff's constant folded to the
  single-precision word nearest π/10 against the product with the word for π divided by ten, a truth value widened
  and read signed against read unsigned, `0 − β` against `−β`, the square's factors associated to the left — are
  equal on all extended reals, so the precondition (finite inputs) is not used by the value claim.

  The three frames: the two kernel programs' are the generated frame certificates; the reference's is its
  generated run with the results dropped. The idealization rewrote nothing, so `preserves` is trivial.
-/
import proofs.«139296_j15607911153859_1_alg».proof.Defs
import proofs.«139296_j15607911153859_1_alg».proof.Proof.Gen.Kernel
import proofs.«139296_j15607911153859_1_alg».proof.Proof.Gen.Kernel.Skeleton
import proofs.«139296_j15607911153859_1_alg».proof.Proof.Gen.Kernel.Launch
import proofs.«139296_j15607911153859_1_alg».proof.Proof.Gen.Kernel.Points
import proofs.«139296_j15607911153859_1_alg».proof.Proof.Gen.Kernel.Frame
import proofs.«139296_j15607911153859_1_alg».proof.Proof.Gen.KernelIdeal
import proofs.«139296_j15607911153859_1_alg».proof.Proof.Gen.KernelIdeal.Skeleton
import proofs.«139296_j15607911153859_1_alg».proof.Proof.Gen.KernelIdeal.Launch
import proofs.«139296_j15607911153859_1_alg».proof.Proof.Gen.KernelIdeal.Points
import proofs.«139296_j15607911153859_1_alg».proof.Proof.Gen.KernelIdeal.Frame
import proofs.«139296_j15607911153859_1_alg».proof.Proof.Gen.ReferenceIdeal
import proofs.«139296_j15607911153859_1_alg».proof.Proof.Gen.Pre_finite_inputs
import proofs.«139296_j15607911153859_1_alg».proof.Proof.Gen.ReferenceIdeal.Run
import proofs.«139296_j15607911153859_1_alg».proof.Proof.Gen.ReferenceIdeal.Read
import proofs.«139296_j15607911153859_1_alg».proof.Proof.KernelTail
import proofs.«139296_j15607911153859_1_alg».proof.Proof.RefValue
import proofs.«139296_j15607911153859_1_alg».proof.Proof.EdgeVectors
import Idealize.ShloMosaic.Adequacy
import Idealize.ShloMosaic.Init

noncomputable section

namespace Cert.Proof

open Idealize.ShloMosaic Idealize.SL.Sem EdgeFeat

theorem frame_kernel : Cert.frame_Kernel (hKernel := Cert.Kernel.Gen.facts) (hPre_finite_inputs := Cert.Pre_finite_inputs.Gen.facts) :=
  fun m ρ _ => Cert.Kernel.Gen.frame m ρ

theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2) (Cert.ReferenceIdeal.Value.run (F := Ideal) m ρ)

/-- Both programs end with the index array as it came and the lengths, features and directions of the rows of the
    one edge-vector array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => m ((c.tc : Thread Cert.KernelIdeal.nD Cert.KernelIdeal.τ).loc Cert.KernelIdeal.main_arg0),
    fun c => weightArr (Cert.KernelIdeal.Tail.edges m c),
    fun c => attrArr (Cert.KernelIdeal.Tail.edges m c)
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    fun c => unitArr (Cert.KernelIdeal.Tail.edges m c),
    Cert.KernelIdeal.Tail.run m ρ, ?_⟩
  refine (θ_run Cert.ReferenceIdeal.defs _ _).mono (fun _ h c => ?_) (Cert.ReferenceIdeal.Value.run (F := Ideal) m' ρ')
  obtain ⟨h0, h1, h2, h3, hrest⟩ := h c
  obtain ⟨g0, g1, g2, g3, g4, g5, g6⟩ := hagree c
  have he : Cert.ReferenceIdeal.Read.val_main_v18 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      = Cert.KernelIdeal.Tail.edges m c := by
    rw [g0, g1, g2]; exact (Cert.EdgeVectors.edges_eq m c).symm
  refine ⟨h0.trans g0, ?_, ?_, ?_, hrest⟩
  · refine h1.trans ((Cert.ReferenceIdeal.Read.val_main_v19_eq _ _ _).trans ((Cert.ReferenceIdeal.RefValue.weight_eq _ _ _).trans ?_))
    rw [he]
  · refine h2.trans ((Cert.ReferenceIdeal.Read.val_main_v57_eq m' c).trans ((Cert.ReferenceIdeal.RefValue.attr_eq _ _ _ _ _ _ _).trans ?_))
    rw [he, g3, g4, g5, g6]
  · refine h3.trans ((Cert.ReferenceIdeal.Read.val_main_v22_eq m' c).trans ((Cert.ReferenceIdeal.RefValue.unit_eq _ _ _).trans ?_))
    rw [he]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
